-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128 .f32) (main_arg8 : FVec F S384x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x64 .f32 := Host.absf main_arg8
  let main_cst_14 : FVec F S_ .f32 := constant S_ .f32 0x7F800000#32
  let main_v40 : FVec F S384x64 .f32 := broadcastInDim S384x64 ![] bcast_S_S384x64 main_cst_14
  let main_v41 : IVec S384x64 1 := cmpf .olt main_v39 main_v40
  let main_c_15 : IVec S_ 1 := constantI S_ 1 1#1
  let main_v42 : IVec S_ 1 := (fun x v => Host.reduce IntOp.andi x v reducesTo_S384x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S384x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S384x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S128x384 : Shape := ⟨2, ![128, 384]⟩
abbrev S384 : Shape := ⟨1, ![384]⟩
abbrev S1x384 : Shape := ⟨2, ![1, 384]⟩
abbrev S10000x384 : Shape := ⟨2, ![10000, 384]⟩
abbrev S400x128 : Shape := ⟨2, ![400, 128]⟩
abbrev S400x384 : Shape := ⟨2, ![400, 384]⟩
abbrev S10000x256 : Shape := ⟨2, ![10000, 256]⟩
abbrev S400x10000 : Shape := ⟨2, ![400, 10000]⟩
abbrev S400x256 : Shape := ⟨2, ![400, 256]⟩
abbrev S1x64 : Shape := ⟨2, ![1, 64]⟩
abbrev S10000x64 : Shape := ⟨2, ![10000, 64]⟩
abbrev S400x64 : Shape := ⟨2, ![400, 64]⟩

abbrev nBuf : Space → Nat
  | .hbm => 20
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x64, .f32⟩
  | .hbm, ⟨9, _⟩ => ⟨S64, .f32⟩
  | .hbm, ⟨10, _⟩ => ⟨S128x384, .f32⟩
  | .hbm, ⟨11, _⟩ => ⟨S384, .f32⟩
  | .hbm, ⟨12, _⟩ => ⟨S1x384, .f32⟩
  | .hbm, ⟨13, _⟩ => ⟨S10000x384, .f32⟩
  | .hbm, ⟨14, _⟩ => ⟨S10000x128, .f32⟩
  | .hbm, ⟨15, _⟩ => ⟨S10000x256, .f32⟩
  | .hbm, ⟨16, _⟩ => ⟨S10000x128, .f32⟩
  | .hbm, ⟨17, _⟩ => ⟨S10000x128, .f32⟩
  | .hbm, ⟨18, _⟩ => ⟨S1x64, .f32⟩
  | .hbm, ⟨19, _⟩ => ⟨S10000x64, .f32⟩
  | .local _ .vmem, ⟨0, _⟩ => ⟨S400x128, .f32⟩
  | .local _ .vmem, ⟨1, _⟩ => ⟨S400x128, .f32⟩
  | .local _ .vmem, ⟨2, _⟩ => ⟨S128x384, .f32⟩
  | .local _ .vmem, ⟨3, _⟩ => ⟨S400x384, .f32⟩
  | .local _ .vmem, ⟨4, _⟩ => ⟨S400x384, .f32⟩
  | .local _ .vmem, ⟨5, _⟩ => ⟨S400x10000, .f32⟩
  | .local _ .vmem, ⟨6, _⟩ => ⟨S400x10000, .f32⟩
  | .local _ .vmem, ⟨7, _⟩ => ⟨S10000x384, .f32⟩
  | .local _ .vmem, ⟨8, _⟩ => ⟨S400x128, .f32⟩
  | .local _ .vmem, ⟨9, _⟩ => ⟨S400x128, .f32⟩
  | .local _ .vmem, ⟨10, _⟩ => ⟨S400x256, .f32⟩
  | .local _ .vmem, ⟨11, _⟩ => ⟨S400x256, .f32⟩
  | .local _ .vmem, ⟨12, _⟩ => ⟨S400x10000, .f32⟩
  | .local _ .vmem, ⟨13, _⟩ => ⟨S400x10000, .f32⟩
  | .local _ .vmem, ⟨14, _⟩ => ⟨S10000x256, .f32⟩
  | .local _ .vmem, ⟨15, _⟩ => ⟨S400x128, .f32⟩
  | .local _ .vmem, ⟨16, _⟩ => ⟨S400x128, .f32⟩
  | .local _ .vmem, ⟨17, _⟩ => ⟨S400x128, .f32⟩
  | .local _ .vmem, ⟨18, _⟩ => ⟨S400x128, .f32⟩
  | .local _ .vmem, ⟨19, _⟩ => ⟨S400x10000, .f32⟩
  | .local _ .vmem, ⟨20, _⟩ => ⟨S400x10000, .f32⟩
  | .local _ .vmem, ⟨21, _⟩ => ⟨S10000x128, .f32⟩
  | .local _ .vmem, ⟨22, _⟩ => ⟨S400x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | .local _ .vmem, ⟨26, _⟩ => ⟨S1x384, .f32⟩
  | .local _ .vmem, ⟨27, _⟩ => ⟨S384x64, .f32⟩
  | .local _ .vmem, ⟨28, _⟩ => ⟨S1x64, .f32⟩
  | .local _ .vmem, ⟨29, _⟩ => ⟨S400x64, .f32⟩
  | .local _ .vmem, ⟨30, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem7_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S384x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  bcast_S384_S1x384_1 : S384.BroadcastsInDim S1x384 (![1] : Fin 1 → Fin S1x384.rank)
  inb_S400x128_S400x128_0_0 : ∀ a, (![0, 0] : Fin 2 → Nat) a + S400x128.size a ≤ S400x128.size a
  h_S400x128 : 0 < S400x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S400x384_S400x384_0_0 : ∀ a, (![0, 0] : Fin 2 → Nat) a + S400x384.size a ≤ S400x384.size a
  h_S400x384 : 0 < S400x384.numel
  inb_S400x10000_S400x10000_0_0 : ∀ a, (![0, 0] : Fin 2 → Nat) a + S400x10000.size a ≤ S400x10000.size a
  h_S400x10000 : 0 < S400x10000.numel
  inb_S10000x384_S10000x384_0_0 : ∀ a, (![0, 0] : Fin 2 → Nat) a + S10000x384.size a ≤ S10000x384.size a
  h_S10000x384 : 0 < S10000x384.numel
  shapeCasts_S10000x384_S10000x384 : S10000x384.ShapeCasts S10000x384
  slices_S400x384_o0_0_S400x128 : S400x384.Slices ![0, 0] S400x128
  slices_S400x384_o0_128_S400x256 : S400x384.Slices ![0, 128] S400x256
  inb_S400x256_S400x256_0_0 : ∀ a, (![0, 0] : Fin 2 → Nat) a + S400x256.size a ≤ S400x256.size a
  h_S400x256 : 0 < S400x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  slices_S400x256_o0_0_S400x128 : S400x256.Slices ![0, 0] S400x128
  slices_S400x256_o0_128_S400x128 : S400x256.Slices ![0, 128] S400x128
  bcast_S64_S1x64_1 : S64.BroadcastsInDim S1x64 (![1] : Fin 1 → Fin S1x64.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x128_S400x128 : S400x128.ShapeCasts S400x128
  concatenates_S400x128_S400x128_S400x128_S400x384_d1 : Shape.Concatenates [S400x128, S400x128, S400x128] S400x384 1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S400x384 : S1x384.Broadcasts S400x384
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S400x128_S128x384_S400x384_1_0_0_1_n_n_wf : DotDims.WF S400x128 S128x384 S400x384 [1] [0] [0] [1] [] []
  dot_S400x10000_S10000x384_S400x384_1_0_0_1_n_n_wf : DotDims.WF S400x10000 S10000x384 S400x384 [1] [0] [0] [1] [] []
  dot_S400x10000_S10000x256_S400x256_1_0_0_1_n_n_wf : DotDims.WF S400x10000 S10000x256 S400x256 [1] [0] [0] [1] [] []
  dot_S400x10000_S10000x128_S400x128_1_0_0_1_n_n_wf : DotDims.WF S400x10000 S10000x128 S400x128 [1] [0] [0] [1] [] []
  dot_S400x384_S384x64_S400x64_1_0_0_1_n_n_wf : DotDims.WF S400x384 S384x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x384.size a ≤ S10000x384.size a
  hwx0_2 : ∀ i : grid0.Coords, EltTy.bits .f32 = 32 ∨ (Rect.block (s := S10000x384) S400x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x384.size a ≤ S10000x384.size a
  hwx1_1 : ∀ i : grid1.Coords, EltTy.bits .f32 = 32 ∨ (Rect.block (s := S10000x384) S10000x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S384x64.size a ≤ S384x64.size a
  hwx3_5 : ∀ i : grid3.Coords, EltTy.bits .f32 = 32 ∨ (Rect.block (s := S384x64) S384x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x64.size a ≤ S10000x64.size a
  hwx3_7 : ∀ i : grid3.Coords, EltTy.bits .f32 = 32 ∨ (Rect.block (s := S10000x64) S400x64.size (cc3_transform_7 i) (hinb3_7 i)).WholeWords (EltTy.packing .f32)

variable [Facts₀]

def dot_S400x128_S128x384_S400x384_1_0_0_1_n_n : DotDims S400x128 S128x384 S400x384 where
  lhsContracting := [1]
  rhsContracting := [0]
  lhsNonContracting := [0]
  rhsNonContracting := [1]
  lhsBatch := []
  rhsBatch := []
  wf := dot_S400x128_S128x384_S400x384_1_0_0_1_n_n_wf
def dot_S400x10000_S10000x384_S400x384_1_0_0_1_n_n : DotDims S400x10000 S10000x384 S400x384 where
  lhsContracting := [1]
  rhsContracting := [0]
  lhsNonContracting := [0]
  rhsNonContracting := [1]
  lhsBatch := []
  rhsBatch := []
  wf := dot_S400x10000_S10000x384_S400x384_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x384_S384x64_S400x64_1_0_0_1_n_n : DotDims S400x384 S384x64 S400x64 where
  lhsContracting := [1]
  rhsContracting := [0]
  lhsNonContracting := [0]
  rhsNonContracting := [1]
  lhsBatch := []
  rhsBatch := []
  wf := dot_S400x384_S384x64_S400x64_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S400x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S400x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5_0) S400x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5_1) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5_1) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4_0) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5_0) S400x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v2) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S384x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v7) S400x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S1x128 : Shape := ⟨2, ![1, 128]⟩
abbrev S10000x384 : Shape := ⟨2, ![10000, 384]⟩
abbrev S_ : Shape := ⟨0, ![]⟩
abbrev S10000x64 : Shape := ⟨2, ![10000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x64, .f32⟩
  | .hbm, ⟨9, _⟩ => ⟨S64, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x384, .f32⟩
  | .hbm, ⟨29, _⟩ => ⟨S_, .f32⟩
  | .hbm, ⟨30, _⟩ => ⟨S10000x384, .f32⟩
  | .hbm, ⟨31, _⟩ => ⟨S10000x384, .f32⟩
  | .hbm, ⟨32, _⟩ => ⟨S10000x64, .f32⟩
  | .hbm, ⟨33, _⟩ => ⟨S1x64, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S_, .f32⟩
  | .hbm, ⟨42, _⟩ => ⟨S10000x64, .f32⟩
  | .hbm, ⟨43, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x128_S10000x384_d1 : Shape.Concatenates [S10000x128, S10000x128, S10000x128] S10000x384 1
  bcast_S_S10000x384 : S_.BroadcastsInDim S10000x384 (![] : Fin 0 → Fin S10000x384.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x384_S384x64_S10000x64_1_0_0_1_n_n_wf : DotDims.WF S10000x384 S384x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x384_S384x64_S10000x64_1_0_0_1_n_n : DotDims S10000x384 S384x64 S10000x64 where
  lhsContracting := [1]
  rhsContracting := [0]
  lhsNonContracting := [0]
  rhsNonContracting := [1]
  lhsBatch := []
  rhsBatch := []
  wf := dot_S10000x384_S384x64_S10000x64_1_0_0_1_n_n_wf

class Facts : Prop extends Facts₀ where

variable [Facts]
-- ==== Proof.Kernel.Region0.lean ====
/-
  Region 0 of the kernel program: the row-blocked product t = x · [W1|W2|W3].  At each of the 25 grid points the
  body reads a 400×128 block of x and the whole 128×384 right-hand side and stores their product into the
  400×384 output block.  Stated at a parameter V, the buffer contents when the region is entered: what the output
  block holds after the body as a function of the two input blocks, the body's triple, the pipeline's proof data
  and the per-point obligation.
-/
import proofs.«180432_g81776177316087_cont_9to1_m_1181_4_alg».proof.Proof.Gen.Kernel.Launch
import proofs.«180432_g81776177316087_cont_9to1_m_1181_4_alg».proof.Proof.Gen.Kernel.Skeleton
import proofs.«180432_g81776177316087_cont_9to1_m_1181_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right-hand side's staging buffer holds the whole matrix at every point (fetched once, its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S400x128 := Rect.unit (s := S400x128) ![0, 0] S400x128.size inb_S400x128_S400x128_0_0
abbrev r0_1 : Rect S128x384 := Rect.unit (s := S128x384) ![0, 0] S128x384.size inb_S128x384_S128x384_0_0
abbrev r0_2 : Rect S400x384 := Rect.unit (s := S400x384) ![0, 0] S400x384.size inb_S400x384_S400x384_0_0

/-- The output block after the body: one whole-block store of the product of the two input blocks. -/
def out0_2 (x0 : Vec F S400x128 .f32) (x1 : Vec F S128x384 .f32) : Vec F S400x384 .f32 :=
  View.canon [⟨r0_2, k0_pay1 (View.ld x0 r0_0) (View.ld x1 r0_1)⟩]

/-- The one store covers the output block. -/
theorem cover0_2 (p0 : Vec F S400x384 .f32) (y : S400x384.Idx) :
    ∃ pc ∈ ([⟨r0_2, p0⟩] : List (View.Piece (Elt F) S400x384 .f32)), y ∈ pc.1.set :=
  View.cover_of_tiled [⟨r0_2, p0⟩] S400x384.size (by rfl) y

set_option maxHeartbeats 1000000 in
/-- The body on whole staging buffers: the inputs stay as they were and the output ends at out0_2 of them. -/
theorem sound_kernel0 (c : Dev nD) (E : Set ℕ) (i : grid0.Coords) (arg1 : Memref sig .tc .vmem S400x128 .f32) (harg1 : arg1.IsWhole) (arg2 : Memref sig .tc .vmem S128x384 .f32) (harg2 : arg2.IsWhole) (arg3 : Memref sig .tc .vmem S400x384 .f32) (harg3 : arg3.IsWhole)
    (x0 : Vec F S400x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body each input's buffer at
    its block and the output's at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation the launch takes. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.Region1.lean ====
/-
  Region 1 of the kernel program: the first pass over the adjacency matrix, U = adj · t, split by columns.  At each of the
  25 grid points the body reads a 400×10000 block of rows of adj and the whole 10000×384 matrix t, forms their
  product, and stores its first 128 columns into one output block and the remaining 256 into the other.  Stated at a
  parameter V, the buffer contents when the region is entered.
-/
import proofs.«180432_g81776177316087_cont_9to1_m_1181_4_alg».proof.Proof.Gen.Kernel.Launch
import proofs.«180432_g81776177316087_cont_9to1_m_1181_4_alg».proof.Proof.Gen.Kernel.Skeleton
import proofs.«180432_g81776177316087_cont_9to1_m_1181_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds its block of rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right-hand side's staging buffer holds the whole matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x384 := Rect.unit (s := S10000x384) ![0, 0] S10000x384.size inb_S10000x384_S10000x384_0_0
abbrev r1_2 : Rect S400x128 := Rect.unit (s := S400x128) ![0, 0] S400x128.size inb_S400x128_S400x128_0_0
abbrev r1_3 : Rect S400x256 := Rect.unit (s := S400x256) ![0, 0] S400x256.size inb_S400x256_S400x256_0_0

/-- The first output block after the body: columns 0..127 of the product. -/
def out1_2 (x0 : Vec F S400x10000 .f32) (x1 : Vec F S10000x384 .f32) : Vec F S400x128 .f32 :=
  View.canon [⟨r1_2, k1_pay2 (View.ld x0 r1_0) (View.ld x1 r1_1)⟩]
/-- The second output block after the body: columns 128..383 of the product. -/
def out1_3 (x0 : Vec F S400x10000 .f32) (x1 : Vec F S10000x384 .f32) : Vec F S400x256 .f32 :=
  View.canon [⟨r1_3, k1_pay3 (View.ld x0 r1_0) (View.ld x1 r1_1)⟩]

theorem cover1_2 (p0 : Vec F S400x128 .f32) (y : S400x128.Idx) :
    ∃ pc ∈ ([⟨r1_2, p0⟩] : List (View.Piece (Elt F) S400x128 .f32)), y ∈ pc.1.set :=
  View.cover_of_tiled [⟨r1_2, p0⟩] S400x128.size (by rfl) y
theorem cover1_3 (p0 : Vec F S400x256 .f32) (y : S400x256.Idx) :
    ∃ pc ∈ ([⟨r1_3, p0⟩] : List (View.Piece (Elt F) S400x256 .f32)), y ∈ pc.1.set :=
  View.cover_of_tiled [⟨r1_3, p0⟩] S400x256.size (by rfl) y

set_option maxHeartbeats 1000000 in
/-- The body on whole staging buffers: the inputs stay as they were and the outputs end at out1_2 and out1_3 of them. -/
theorem sound_kernel1 (c : Dev nD) (E : Set ℕ) (i : grid1.Coords) (arg1 : Memref sig .tc .vmem S400x10000 .f32) (harg1 : arg1.IsWhole) (arg2 : Memref sig .tc .vmem S10000x384 .f32) (harg2 : arg2.IsWhole) (arg3 : Memref sig .tc .vmem S400x128 .f32) (harg3 : arg3.IsWhole) (arg4 : Memref sig .tc .vmem S400x256 .f32) (harg4 : arg4.IsWhole)
    (x0 : Vec F S400x10000 .f32) (x1 : Vec F S10000x384 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__mm_split_kernel i arg1 harg1 arg2 harg2 arg3 harg3 arg4 harg4) K := by
  simp only [cc1__mm_split_kernel_eq_skeleton]; unfold cc1__mm_split_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The pipeline's proof data on core c: the arrays as the region finds them; after the body each input's buffer at
    its block and each output's at its column range of the product of the two input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation the launch takes. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.Kernel.Region2.lean ====
/-
  Region 2 of the kernel program: the second pass over the adjacency matrix, V = adj · U[:, 128:], split by columns.  At each of the
  25 grid points the body reads a 400×10000 block of rows of adj and the whole 10000×256 right-hand side, forms their
  product, and stores its first 128 columns into one output block and the remaining 128 into the other.  Stated at a
  parameter V, the buffer contents when the region is entered.
-/
import proofs.«180432_g81776177316087_cont_9to1_m_1181_4_alg».proof.Proof.Gen.Kernel.Launch
import proofs.«180432_g81776177316087_cont_9to1_m_1181_4_alg».proof.Proof.Gen.Kernel.Skeleton
import proofs.«180432_g81776177316087_cont_9to1_m_1181_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's staging buffer holds its block of rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right-hand side's staging buffer holds the whole matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x256 := Rect.unit (s := S10000x256) ![0, 0] S10000x256.size inb_S10000x256_S10000x256_0_0
abbrev r2_2 : Rect S400x128 := Rect.unit (s := S400x128) ![0, 0] S400x128.size inb_S400x128_S400x128_0_0
abbrev r2_3 : Rect S400x128 := Rect.unit (s := S400x128) ![0, 0] S400x128.size inb_S400x128_S400x128_0_0

/-- The first output block after the body: columns 0..127 of the product. -/
def out2_2 (x0 : Vec F S400x10000 .f32) (x1 : Vec F S10000x256 .f32) : Vec F S400x128 .f32 :=
  View.canon [⟨r2_2, k2_pay2 (View.ld x0 r2_0) (View.ld x1 r2_1)⟩]
/-- The second output block after the body: columns 128..255 of the product. -/
def out2_3 (x0 : Vec F S400x10000 .f32) (x1 : Vec F S10000x256 .f32) : Vec F S400x128 .f32 :=
  View.canon [⟨r2_3, k2_pay3 (View.ld x0 r2_0) (View.ld x1 r2_1)⟩]

theorem cover2_2 (p0 : Vec F S400x128 .f32) (y : S400x128.Idx) :
    ∃ pc ∈ ([⟨r2_2, p0⟩] : List (View.Piece (Elt F) S400x128 .f32)), y ∈ pc.1.set :=
  View.cover_of_tiled [⟨r2_2, p0⟩] S400x128.size (by rfl) y
theorem cover2_3 (p0 : Vec F S400x128 .f32) (y : S400x128.Idx) :
    ∃ pc ∈ ([⟨r2_3, p0⟩] : List (View.Piece (Elt F) S400x128 .f32)), y ∈ pc.1.set :=
  View.cover_of_tiled [⟨r2_3, p0⟩] S400x128.size (by rfl) y

set_option maxHeartbeats 1000000 in
/-- The body on whole staging buffers: the inputs stay as they were and the outputs end at out2_2 and out2_3 of them. -/
theorem sound_kernel2 (c : Dev nD) (E : Set ℕ) (i : grid2.Coords) (arg1 : Memref sig .tc .vmem S400x10000 .f32) (harg1 : arg1.IsWhole) (arg2 : Memref sig .tc .vmem S10000x256 .f32) (harg2 : arg2.IsWhole) (arg3 : Memref sig .tc .vmem S400x128 .f32) (harg3 : arg3.IsWhole) (arg4 : Memref sig .tc .vmem S400x128 .f32) (harg4 : arg4.IsWhole)
    (x0 : Vec F S400x10000 .f32) (x1 : Vec F S10000x256 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__mm_split_kernel i arg1 harg1 arg2 harg2 arg3 harg3 arg4 harg4) K := by
  simp only [cc2__mm_split_kernel_eq_skeleton]; unfold cc2__mm_split_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-- The pipeline's proof data on core c: the arrays as the region finds them; after the body each input's buffer at
    its block and each output's at its column range of the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation the launch takes. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.Kernel.Region3.lean ====
/-
  Region 3 of the kernel program: the third pass over the adjacency matrix fused with the epilogue.  At each of the 25
  grid points the body reads a 400×10000 block of rows of adj, the whole 10000×128 right-hand side, the matching
  400×128 row blocks of the first- and second-order features, the 1×384 bias row, the whole 384×64 classifier matrix
  and its 1×64 bias row; it forms adj·rhs, concatenates the three 128-column pieces, adds the bias, takes the maximum
  with zero, multiplies by the classifier matrix, adds its bias and applies the logistic function, storing the 400×64
  result block.  Stated at a parameter V, the buffer contents when the region is entered.
-/
import proofs.«180432_g81776177316087_cont_9to1_m_1181_4_alg».proof.Proof.Gen.Kernel.Launch
import proofs.«180432_g81776177316087_cont_9to1_m_1181_4_alg».proof.Proof.Gen.Kernel.Skeleton
import proofs.«180432_g81776177316087_cont_9to1_m_1181_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, whether it is fetched there or its index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S400x10000 := Rect.unit (s := S400x10000) ![0, 0] S400x10000.size inb_S400x10000_S400x10000_0_0
abbrev r3_1 : Rect S10000x128 := Rect.unit (s := S10000x128) ![0, 0] S10000x128.size inb_S10000x128_S10000x128_0_0
abbrev r3_2 : Rect S400x128 := Rect.unit (s := S400x128) ![0, 0] S400x128.size inb_S400x128_S400x128_0_0
abbrev r3_4 : Rect S1x384 := Rect.unit (s := S1x384) ![0, 0] S1x384.size inb_S1x384_S1x384_0_0
abbrev r3_5 : Rect S384x64 := Rect.unit (s := S384x64) ![0, 0] S384x64.size inb_S384x64_S384x64_0_0
abbrev r3_6 : Rect S1x64 := Rect.unit (s := S1x64) ![0, 0] S1x64.size inb_S1x64_S1x64_0_0
abbrev r3_7 : Rect S400x64 := Rect.unit (s := S400x64) ![0, 0] S400x64.size inb_S400x64_S400x64_0_0

/-- The output block after the body: one whole-block store of the epilogue's value of the seven input blocks. -/
def out3_7 (x0 : Vec F S400x10000 .f32) (x1 : Vec F S10000x128 .f32) (x2 : Vec F S400x128 .f32) (x3 : Vec F S400x128 .f32) (x4 : Vec F S1x384 .f32) (x5 : Vec F S384x64 .f32) (x6 : Vec F S1x64 .f32) : Vec F S400x64 .f32 :=
  View.canon [⟨r3_7, k3_pay1 (View.ld x0 r3_0) (View.ld x1 r3_1) (View.ld x2 r3_2) (View.ld x3 r3_2) (View.ld x4 r3_4) (View.ld x5 r3_5) (View.ld x6 r3_6)⟩]

theorem cover3_7 (p0 : Vec F S400x64 .f32) (y : S400x64.Idx) :
    ∃ pc ∈ ([⟨r3_7, p0⟩] : List (View.Piece (Elt F) S400x64 .f32)), y ∈ pc.1.set :=
  View.cover_of_tiled [⟨r3_7, p0⟩] S400x64.size (by rfl) y

set_option maxHeartbeats 1000000 in
/-- The body on whole staging buffers: the inputs stay as they were and the output ends at out3_7 of them. -/
theorem sound_kernel3 (c : Dev nD) (E : Set ℕ) (i : grid3.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S400x128 .f32) (harg4 : arg4.IsWhole) (arg5 : Memref sig .tc .vmem S1x384 .f32) (harg5 : arg5.IsWhole) (arg6 : Memref sig .tc .vmem S384x64 .f32) (harg6 : arg6.IsWhole) (arg7 : Memref sig .tc .vmem S1x64 .f32) (harg7 : arg7.IsWhole) (arg8 : Memref sig .tc .vmem S400x64 .f32) (harg8 : arg8.IsWhole)
    (x0 : Vec F S400x10000 .f32) (x1 : Vec F S10000x128 .f32) (x2 : Vec F S400x128 .f32) (x3 : Vec F S400x128 .f32) (x4 : Vec F S1x384 .f32) (x5 : Vec F S384x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The pipeline's proof data on core c: the arrays as the region finds them; after the body each input's buffer at
    its block and the output's at the epilogue's value of the seven input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The per-point obligation the launch takes. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.Kernel.Run.lean ====
/-
  The kernel program's run from launch to return.  Its six items in order are: the host operations that build the
  concatenated weight matrix and bias row, three kernel regions (t = x·[W1|W2|W3]; U = adj·t split by columns;
  V = adj·U[:,128:] split by columns), the host broadcast of the classifier bias, and the final region.  The buffer
  contents at each boundary are a fold from the launch memory: a host stretch applies its operations, a region leaves
  its arrays at what its write-backs produce and every other buffer as it was.  Every weakly fair execution terminates
  with every unscoped buffer at the last boundary's contents; each argument array read through the fold is its launch
  contents.
-/
import proofs.«180432_g81776177316087_cont_9to1_m_1181_4_alg».proof.Proof.Kernel.Region0
import proofs.«180432_g81776177316087_cont_9to1_m_1181_4_alg».proof.Proof.Kernel.Region1
import proofs.«180432_g81776177316087_cont_9to1_m_1181_4_alg».proof.Proof.Kernel.Region2
import proofs.«180432_g81776177316087_cont_9to1_m_1181_4_alg».proof.Proof.Kernel.Region3
import proofs.«180432_g81776177316087_cont_9to1_m_1181_4_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After the second host stretch (region 3's entry). -/
abbrev W5 : Dev nD → Valuation τ sig (Elt F) := fun c => StableHlo.after hostOps3 (W4 m ρ c)
abbrev U5 : (c : Dev nD) → (b : Ref sig .tc) → Buf (Elt F) ((c : Thread nD τ).loc b) := fun c b => W5 m ρ c b

/-- At region 3's exit: its arrays at what the pipeline leaves (the inputs as entered, each output's write-backs
    folded), every other buffer as entered. -/
def W6 (c : Dev nD) : Valuation τ sig (Elt F) :=
  Pipeline.withArrays spec3 c (W5 m ρ c) fun w => (dat3 (U5 m ρ) c).arrAt w cfg3.N
theorem W6_arr (c : Dev nD) (w : Fin cfg3.W) :
    W6 m ρ c (Proc.devRef .tc (Pipeline.arrRef spec3 w)) = (dat3 (U5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the core's references. -/
abbrev U6 : (c : Dev nD) → (b : Ref sig .tc) → Buf (Elt F) ((c : Thread nD τ).loc b) := fun c b => W6 m ρ c b
theorem hF3 (c : Dev nD) (w : Fin cfg3.W) : (dat3 (U5 m ρ) c).arrAt w cfg3.N = U6 m ρ c (Pipeline.arrRef spec3 w) :=
  (W6_arr m ρ c w).symm
theorem hrest3 (c : Dev nD) : ∀ b, b ∉ Finset.univ.image (Pipeline.arrRef spec3) → U6 m ρ c b = U5 m ρ c b :=
  fun b hb => W6_of_ne m ρ c b fun w e => hb (Finset.mem_image.mpr ⟨w, Finset.mem_univ _, e⟩)

/-! ## What each item leaves unchanged -/

theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W5_keep (c : Dev nD) (b : Ref sig .tc) (hb : b ∉ hostOps3_W) : W5 m ρ c (Proc.devRef .tc b) = W4 m ρ c (Proc.devRef .tc b) :=
  StableHlo.after_of_writes_sub hostOps3 _ hostOps3_writes hb
/-- A region leaves the array of an input window as it found it. -/
theorem W2_in0 (c : Dev nD) : W2 m ρ c (Proc.devRef .tc main_arg0) = W1 m ρ c (Proc.devRef .tc main_arg0) :=
  (W2_arr m ρ c 0).trans (((dat0 (U1 m ρ) c).arrAt_in 0 rfl _).trans (A_eq0 (U1 m ρ) c 0))
theorem W2_in1 (c : Dev nD) : W2 m ρ c (Proc.devRef .tc main_v0) = W1 m ρ c (Proc.devRef .tc main_v0) :=
  (W2_arr m ρ c 1).trans (((dat0 (U1 m ρ) c).arrAt_in 1 rfl _).trans (A_eq0 (U1 m ρ) c 1))
theorem W3_in0 (c : Dev nD) : W3 m ρ c (Proc.devRef .tc main_arg1) = W2 m ρ c (Proc.devRef .tc main_arg1) :=
  (W3_arr m ρ c 0).trans (((dat1 (U2 m ρ) c).arrAt_in 0 rfl _).trans (A_eq1 (U2 m ρ) c 0))
theorem W3_in1 (c : Dev nD) : W3 m ρ c (Proc.devRef .tc main_v3) = W2 m ρ c (Proc.devRef .tc main_v3) :=
  (W3_arr m ρ c 1).trans (((dat1 (U2 m ρ) c).arrAt_in 1 rfl _).trans (A_eq1 (U2 m ρ) c 1))
theorem W4_in0 (c : Dev nD) : W4 m ρ c (Proc.devRef .tc main_arg1) = W3 m ρ c (Proc.devRef .tc main_arg1) :=
  (W4_arr m ρ c 0).trans (((dat2 (U3 m ρ) c).arrAt_in 0 rfl _).trans (A_eq2 (U3 m ρ) c 0))
theorem W4_in1 (c : Dev nD) : W4 m ρ c (Proc.devRef .tc main_v4_1) = W3 m ρ c (Proc.devRef .tc main_v4_1) :=
  (W4_arr m ρ c 1).trans (((dat2 (U3 m ρ) c).arrAt_in 1 rfl _).trans (A_eq2 (U3 m ρ) c 1))
theorem W6_in0 (c : Dev nD) : W6 m ρ c (Proc.devRef .tc main_arg1) = W5 m ρ c (Proc.devRef .tc main_arg1) :=
  (W6_arr m ρ c 0).trans (((dat3 (U5 m ρ) c).arrAt_in 0 rfl _).trans (A_eq3 (U5 m ρ) c 0))
theorem W6_in5 (c : Dev nD) : W6 m ρ c (Proc.devRef .tc main_arg8) = W5 m ρ c (Proc.devRef .tc main_arg8) :=
  (W6_arr m ρ c 5).trans (((dat3 (U5 m ρ) c).arrAt_in 5 rfl _).trans (A_eq3 (U5 m ρ) c 5))

/-! ## The arguments end as launched -/

theorem W6_main_arg0 (c : Dev nD) : W6 m ρ c (Proc.devRef .tc main_arg0) = m ((c : Thread nD τ).loc main_arg0) :=
  (W6_of_ne m ρ c main_arg0 (by decide)).trans <| (W5_keep m ρ c main_arg0 (by decide)).trans <| (W4_of_ne m ρ c main_arg0 (by decide)).trans <|
    (W3_of_ne m ρ c main_arg0 (by decide)).trans <| (W2_in0 m ρ c).trans <| (W1_keep m ρ c main_arg0 (by decide)).trans rfl
theorem W6_main_arg1 (c : Dev nD) : W6 m ρ c (Proc.devRef .tc main_arg1) = m ((c : Thread nD τ).loc main_arg1) :=
  (W6_in0 m ρ c).trans <| (W5_keep m ρ c main_arg1 (by decide)).trans <| (W4_in0 m ρ c).trans <|
    (W3_in0 m ρ c).trans <| (W2_of_ne m ρ c main_arg1 (by decide)).trans <| (W1_keep m ρ c main_arg1 (by decide)).trans rfl
/-- An argument no region stages and no host operation writes. -/
theorem W6_host_arg (c : Dev nD) (b : Ref sig .tc) (h3 : ∀ w, Pipeline.arrRef spec3 w ≠ b) (h5 : b ∉ hostOps3_W) (h2 : ∀ w, Pipeline.arrRef spec2 w ≠ b)
    (h1 : ∀ w, Pipeline.arrRef spec1 w ≠ b) (h0 : ∀ w, Pipeline.arrRef spec0 w ≠ b) (hh : b ∉ hostOps0_W) :
    W6 m ρ c (Proc.devRef .tc b) = W0 m ρ c (Proc.devRef .tc b) :=
  (W6_of_ne m ρ c b h3).trans <| (W5_keep m ρ c b h5).trans <| (W4_of_ne m ρ c b h2).trans <|
    (W3_of_ne m ρ c b h1).trans <| (W2_of_ne m ρ c b h0).trans <| (W1_keep m ρ c b hh)
theorem W6_main_arg2 (c : Dev nD) : W6 m ρ c (Proc.devRef .tc main_arg2) = m ((c : Thread nD τ).loc main_arg2) :=
  W6_host_arg m ρ c main_arg2 (by decide) (by decide) (by decide) (by decide) (by decide) (by decide)
theorem W6_main_arg3 (c : Dev nD) : W6 m ρ c (Proc.devRef .tc main_arg3) = m ((c : Thread nD τ).loc main_arg3) :=
  W6_host_arg m ρ c main_arg3 (by decide) (by decide) (by decide) (by decide) (by decide) (by decide)
theorem W6_main_arg4 (c : Dev nD) : W6 m ρ c (Proc.devRef .tc main_arg4) = m ((c : Thread nD τ).loc main_arg4) :=
  W6_host_arg m ρ c main_arg4 (by decide) (by decide) (by decide) (by decide) (by decide) (by decide)
theorem W6_main_arg5 (c : Dev nD) : W6 m ρ c (Proc.devRef .tc main_arg5) = m ((c : Thread nD τ).loc main_arg5) :=
  W6_host_arg m ρ c main_arg5 (by decide) (by decide) (by decide) (by decide) (by decide) (by decide)
theorem W6_main_arg6 (c : Dev nD) : W6 m ρ c (Proc.devRef .tc main_arg6) = m ((c : Thread nD τ).loc main_arg6) :=
  W6_host_arg m ρ c main_arg6 (by decide) (by decide) (by decide) (by decide) (by decide) (by decide)
theorem W6_main_arg7 (c : Dev nD) : W6 m ρ c (Proc.devRef .tc main_arg7) = m ((c : Thread nD τ).loc main_arg7) :=
  W6_host_arg m ρ c main_arg7 (by decide) (by decide) (by decide) (by decide) (by decide) (by decide)
theorem W6_main_arg8 (c : Dev nD) : W6 m ρ c (Proc.devRef .tc main_arg8) = m ((c : Thread nD τ).loc main_arg8) :=
  (W6_in5 m ρ c).trans <| (W5_keep m ρ c main_arg8 (by decide)).trans <| (W4_of_ne m ρ c main_arg8 (by decide)).trans <|
    (W3_of_ne m ρ c main_arg8 (by decide)).trans <| (W2_of_ne m ρ c main_arg8 (by decide)).trans <| (W1_keep m ρ c main_arg8 (by decide)).trans rfl
theorem W6_main_arg9 (c : Dev nD) : W6 m ρ c (Proc.devRef .tc main_arg9) = m ((c : Thread nD τ).loc main_arg9) :=
  W6_host_arg m ρ c main_arg9 (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U5 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment over the thread state: entered with every unscoped buffer at W1, left with them at W2.
    Its arrays are split out of the unscoped buffers on entry and put back at what the write-backs leave on exit;
    the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at W2, left with them at W3.
    Its arrays are split out of the unscoped buffers on entry and put back at what the write-backs leave on exit;
    the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state: entered with every unscoped buffer at W3, left with them at W4.
    Its arrays are split out of the unscoped buffers on entry and put back at what the write-backs leave on exit;
    the generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment over the thread state: entered with every unscoped buffer at W5, left with them at W6.
    Its arrays are split out of the unscoped buffers on entry and put back at what the write-backs leave on exit;
    the generator register goes into the pipeline's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U5 m ρ c) (U6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev items : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ) ]
theorem main_run (c : Dev nD) : main (F := F) c = Pipeline.Seg.run (items m ρ) := (main_chain c).trans (by chain_rfl)

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩) (run_all m ρ)

end Cert.Kernel.Frame

end
-- ==== Proof.KernelIdeal.Region0.lean ====
/-
  Region 0 of the kernel program: the row-blocked product t = x · [W1|W2|W3].  At each of the 25 grid points the
  body reads a 400×128 block of x and the whole 128×384 right-hand side and stores their product into the
  400×384 output block.  Stated at a parameter V, the buffer contents when the region is entered: what the output
  block holds after the body as a function of the two input blocks, the body's triple, the pipeline's proof data
  and the per-point obligation.
-/
import proofs.«180432_g81776177316087_cont_9to1_m_1181_4_alg».proof.Proof.Gen.KernelIdeal.Launch
import proofs.«180432_g81776177316087_cont_9to1_m_1181_4_alg».proof.Proof.Gen.KernelIdeal.Skeleton
import proofs.«180432_g81776177316087_cont_9to1_m_1181_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right-hand side's staging buffer holds the whole matrix at every point (fetched once, its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S400x128 := Rect.unit (s := S400x128) ![0, 0] S400x128.size inb_S400x128_S400x128_0_0
abbrev r0_1 : Rect S128x384 := Rect.unit (s := S128x384) ![0, 0] S128x384.size inb_S128x384_S128x384_0_0
abbrev r0_2 : Rect S400x384 := Rect.unit (s := S400x384) ![0, 0] S400x384.size inb_S400x384_S400x384_0_0

/-- The output block after the body: one whole-block store of the product of the two input blocks. -/
def out0_2 (x0 : Vec F S400x128 .f32) (x1 : Vec F S128x384 .f32) : Vec F S400x384 .f32 :=
  View.canon [⟨r0_2, k0_pay1 (View.ld x0 r0_0) (View.ld x1 r0_1)⟩]

/-- The one store covers the output block. -/
theorem cover0_2 (p0 : Vec F S400x384 .f32) (y : S400x384.Idx) :
    ∃ pc ∈ ([⟨r0_2, p0⟩] : List (View.Piece (Elt F) S400x384 .f32)), y ∈ pc.1.set :=
  View.cover_of_tiled [⟨r0_2, p0⟩] S400x384.size (by rfl) y

set_option maxHeartbeats 1000000 in
/-- The body on whole staging buffers: the inputs stay as they were and the output ends at out0_2 of them. -/
theorem sound_kernel0 (c : Dev nD) (E : Set ℕ) (i : grid0.Coords) (arg1 : Memref sig .tc .vmem S400x128 .f32) (harg1 : arg1.IsWhole) (arg2 : Memref sig .tc .vmem S128x384 .f32) (harg2 : arg2.IsWhole) (arg3 : Memref sig .tc .vmem S400x384 .f32) (harg3 : arg3.IsWhole)
    (x0 : Vec F S400x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body each input's buffer at
    its block and the output's at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation the launch takes. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.Region1.lean ====
/-
  Region 1 of the kernel program: the first pass over the adjacency matrix, U = adj · t, split by columns.  At each of the
  25 grid points the body reads a 400×10000 block of rows of adj and the whole 10000×384 matrix t, forms their
  product, and stores its first 128 columns into one output block and the remaining 256 into the other.  Stated at a
  parameter V, the buffer contents when the region is entered.
-/
import proofs.«180432_g81776177316087_cont_9to1_m_1181_4_alg».proof.Proof.Gen.KernelIdeal.Launch
import proofs.«180432_g81776177316087_cont_9to1_m_1181_4_alg».proof.Proof.Gen.KernelIdeal.Skeleton
import proofs.«180432_g81776177316087_cont_9to1_m_1181_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds its block of rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right-hand side's staging buffer holds the whole matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x384 := Rect.unit (s := S10000x384) ![0, 0] S10000x384.size inb_S10000x384_S10000x384_0_0
abbrev r1_2 : Rect S400x128 := Rect.unit (s := S400x128) ![0, 0] S400x128.size inb_S400x128_S400x128_0_0
abbrev r1_3 : Rect S400x256 := Rect.unit (s := S400x256) ![0, 0] S400x256.size inb_S400x256_S400x256_0_0

/-- The first output block after the body: columns 0..127 of the product. -/
def out1_2 (x0 : Vec F S400x10000 .f32) (x1 : Vec F S10000x384 .f32) : Vec F S400x128 .f32 :=
  View.canon [⟨r1_2, k1_pay2 (View.ld x0 r1_0) (View.ld x1 r1_1)⟩]
/-- The second output block after the body: columns 128..383 of the product. -/
def out1_3 (x0 : Vec F S400x10000 .f32) (x1 : Vec F S10000x384 .f32) : Vec F S400x256 .f32 :=
  View.canon [⟨r1_3, k1_pay3 (View.ld x0 r1_0) (View.ld x1 r1_1)⟩]

theorem cover1_2 (p0 : Vec F S400x128 .f32) (y : S400x128.Idx) :
    ∃ pc ∈ ([⟨r1_2, p0⟩] : List (View.Piece (Elt F) S400x128 .f32)), y ∈ pc.1.set :=
  View.cover_of_tiled [⟨r1_2, p0⟩] S400x128.size (by rfl) y
theorem cover1_3 (p0 : Vec F S400x256 .f32) (y : S400x256.Idx) :
    ∃ pc ∈ ([⟨r1_3, p0⟩] : List (View.Piece (Elt F) S400x256 .f32)), y ∈ pc.1.set :=
  View.cover_of_tiled [⟨r1_3, p0⟩] S400x256.size (by rfl) y

set_option maxHeartbeats 1000000 in
/-- The body on whole staging buffers: the inputs stay as they were and the outputs end at out1_2 and out1_3 of them. -/
theorem sound_kernel1 (c : Dev nD) (E : Set ℕ) (i : grid1.Coords) (arg1 : Memref sig .tc .vmem S400x10000 .f32) (harg1 : arg1.IsWhole) (arg2 : Memref sig .tc .vmem S10000x384 .f32) (harg2 : arg2.IsWhole) (arg3 : Memref sig .tc .vmem S400x128 .f32) (harg3 : arg3.IsWhole) (arg4 : Memref sig .tc .vmem S400x256 .f32) (harg4 : arg4.IsWhole)
    (x0 : Vec F S400x10000 .f32) (x1 : Vec F S10000x384 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__mm_split_kernel i arg1 harg1 arg2 harg2 arg3 harg3 arg4 harg4) K := by
  simp only [cc1__mm_split_kernel_eq_skeleton]; unfold cc1__mm_split_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The pipeline's proof data on core c: the arrays as the region finds them; after the body each input's buffer at
    its block and each output's at its column range of the product of the two input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation the launch takes. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdeal.Region2.lean ====
/-
  Region 2 of the kernel program: the second pass over the adjacency matrix, V = adj · U[:, 128:], split by columns.  At each of the
  25 grid points the body reads a 400×10000 block of rows of adj and the whole 10000×256 right-hand side, forms their
  product, and stores its first 128 columns into one output block and the remaining 128 into the other.  Stated at a
  parameter V, the buffer contents when the region is entered.
-/
import proofs.«180432_g81776177316087_cont_9to1_m_1181_4_alg».proof.Proof.Gen.KernelIdeal.Launch
import proofs.«180432_g81776177316087_cont_9to1_m_1181_4_alg».proof.Proof.Gen.KernelIdeal.Skeleton
import proofs.«180432_g81776177316087_cont_9to1_m_1181_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's staging buffer holds its block of rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right-hand side's staging buffer holds the whole matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x256 := Rect.unit (s := S10000x256) ![0, 0] S10000x256.size inb_S10000x256_S10000x256_0_0
abbrev r2_2 : Rect S400x128 := Rect.unit (s := S400x128) ![0, 0] S400x128.size inb_S400x128_S400x128_0_0
abbrev r2_3 : Rect S400x128 := Rect.unit (s := S400x128) ![0, 0] S400x128.size inb_S400x128_S400x128_0_0

/-- The first output block after the body: columns 0..127 of the product. -/
def out2_2 (x0 : Vec F S400x10000 .f32) (x1 : Vec F S10000x256 .f32) : Vec F S400x128 .f32 :=
  View.canon [⟨r2_2, k2_pay2 (View.ld x0 r2_0) (View.ld x1 r2_1)⟩]
/-- The second output block after the body: columns 128..255 of the product. -/
def out2_3 (x0 : Vec F S400x10000 .f32) (x1 : Vec F S10000x256 .f32) : Vec F S400x128 .f32 :=
  View.canon [⟨r2_3, k2_pay3 (View.ld x0 r2_0) (View.ld x1 r2_1)⟩]

theorem cover2_2 (p0 : Vec F S400x128 .f32) (y : S400x128.Idx) :
    ∃ pc ∈ ([⟨r2_2, p0⟩] : List (View.Piece (Elt F) S400x128 .f32)), y ∈ pc.1.set :=
  View.cover_of_tiled [⟨r2_2, p0⟩] S400x128.size (by rfl) y
theorem cover2_3 (p0 : Vec F S400x128 .f32) (y : S400x128.Idx) :
    ∃ pc ∈ ([⟨r2_3, p0⟩] : List (View.Piece (Elt F) S400x128 .f32)), y ∈ pc.1.set :=
  View.cover_of_tiled [⟨r2_3, p0⟩] S400x128.size (by rfl) y

set_option maxHeartbeats 1000000 in
/-- The body on whole staging buffers: the inputs stay as they were and the outputs end at out2_2 and out2_3 of them. -/
theorem sound_kernel2 (c : Dev nD) (E : Set ℕ) (i : grid2.Coords) (arg1 : Memref sig .tc .vmem S400x10000 .f32) (harg1 : arg1.IsWhole) (arg2 : Memref sig .tc .vmem S10000x256 .f32) (harg2 : arg2.IsWhole) (arg3 : Memref sig .tc .vmem S400x128 .f32) (harg3 : arg3.IsWhole) (arg4 : Memref sig .tc .vmem S400x128 .f32) (harg4 : arg4.IsWhole)
    (x0 : Vec F S400x10000 .f32) (x1 : Vec F S10000x256 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__mm_split_kernel i arg1 harg1 arg2 harg2 arg3 harg3 arg4 harg4) K := by
  simp only [cc2__mm_split_kernel_eq_skeleton]; unfold cc2__mm_split_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-- The pipeline's proof data on core c: the arrays as the region finds them; after the body each input's buffer at
    its block and each output's at its column range of the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation the launch takes. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KernelIdeal.Region3.lean ====
/-
  Region 3 of the kernel program: the third pass over the adjacency matrix fused with the epilogue.  At each of the 25
  grid points the body reads a 400×10000 block of rows of adj, the whole 10000×128 right-hand side, the matching
  400×128 row blocks of the first- and second-order features, the 1×384 bias row, the whole 384×64 classifier matrix
  and its 1×64 bias row; it forms adj·rhs, concatenates the three 128-column pieces, adds the bias, takes the maximum
  with zero, multiplies by the classifier matrix, adds its bias and applies the logistic function, storing the 400×64
  result block.  Stated at a parameter V, the buffer contents when the region is entered.
-/
import proofs.«180432_g81776177316087_cont_9to1_m_1181_4_alg».proof.Proof.Gen.KernelIdeal.Launch
import proofs.«180432_g81776177316087_cont_9to1_m_1181_4_alg».proof.Proof.Gen.KernelIdeal.Skeleton
import proofs.«180432_g81776177316087_cont_9to1_m_1181_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, whether it is fetched there or its index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S400x10000 := Rect.unit (s := S400x10000) ![0, 0] S400x10000.size inb_S400x10000_S400x10000_0_0
abbrev r3_1 : Rect S10000x128 := Rect.unit (s := S10000x128) ![0, 0] S10000x128.size inb_S10000x128_S10000x128_0_0
abbrev r3_2 : Rect S400x128 := Rect.unit (s := S400x128) ![0, 0] S400x128.size inb_S400x128_S400x128_0_0
abbrev r3_4 : Rect S1x384 := Rect.unit (s := S1x384) ![0, 0] S1x384.size inb_S1x384_S1x384_0_0
abbrev r3_5 : Rect S384x64 := Rect.unit (s := S384x64) ![0, 0] S384x64.size inb_S384x64_S384x64_0_0
abbrev r3_6 : Rect S1x64 := Rect.unit (s := S1x64) ![0, 0] S1x64.size inb_S1x64_S1x64_0_0
abbrev r3_7 : Rect S400x64 := Rect.unit (s := S400x64) ![0, 0] S400x64.size inb_S400x64_S400x64_0_0

/-- The output block after the body: one whole-block store of the epilogue's value of the seven input blocks. -/
def out3_7 (x0 : Vec F S400x10000 .f32) (x1 : Vec F S10000x128 .f32) (x2 : Vec F S400x128 .f32) (x3 : Vec F S400x128 .f32) (x4 : Vec F S1x384 .f32) (x5 : Vec F S384x64 .f32) (x6 : Vec F S1x64 .f32) : Vec F S400x64 .f32 :=
  View.canon [⟨r3_7, k3_pay1 (View.ld x0 r3_0) (View.ld x1 r3_1) (View.ld x2 r3_2) (View.ld x3 r3_2) (View.ld x4 r3_4) (View.ld x5 r3_5) (View.ld x6 r3_6)⟩]

theorem cover3_7 (p0 : Vec F S400x64 .f32) (y : S400x64.Idx) :
    ∃ pc ∈ ([⟨r3_7, p0⟩] : List (View.Piece (Elt F) S400x64 .f32)), y ∈ pc.1.set :=
  View.cover_of_tiled [⟨r3_7, p0⟩] S400x64.size (by rfl) y

set_option maxHeartbeats 1000000 in
/-- The body on whole staging buffers: the inputs stay as they were and the output ends at out3_7 of them. -/
theorem sound_kernel3 (c : Dev nD) (E : Set ℕ) (i : grid3.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S400x128 .f32) (harg4 : arg4.IsWhole) (arg5 : Memref sig .tc .vmem S1x384 .f32) (harg5 : arg5.IsWhole) (arg6 : Memref sig .tc .vmem S384x64 .f32) (harg6 : arg6.IsWhole) (arg7 : Memref sig .tc .vmem S1x64 .f32) (harg7 : arg7.IsWhole) (arg8 : Memref sig .tc .vmem S400x64 .f32) (harg8 : arg8.IsWhole)
    (x0 : Vec F S400x10000 .f32) (x1 : Vec F S10000x128 .f32) (x2 : Vec F S400x128 .f32) (x3 : Vec F S400x128 .f32) (x4 : Vec F S1x384 .f32) (x5 : Vec F S384x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The pipeline's proof data on core c: the arrays as the region finds them; after the body each input's buffer at
    its block and the output's at the epilogue's value of the seven input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The per-point obligation the launch takes. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KernelIdeal.Run.lean ====
/-
  The kernel program's run from launch to return.  Its six items in order are: the host operations that build the
  concatenated weight matrix and bias row, three kernel regions (t = x·[W1|W2|W3]; U = adj·t split by columns;
  V = adj·U[:,128:] split by columns), the host broadcast of the classifier bias, and the final region.  The buffer
  contents at each boundary are a fold from the launch memory: a host stretch applies its operations, a region leaves
  its arrays at what its write-backs produce and every other buffer as it was.  Every weakly fair execution terminates
  with every unscoped buffer at the last boundary's contents; each argument array read through the fold is its launch
  contents.
-/
import proofs.«180432_g81776177316087_cont_9to1_m_1181_4_alg».proof.Proof.KernelIdeal.Region0
import proofs.«180432_g81776177316087_cont_9to1_m_1181_4_alg».proof.Proof.KernelIdeal.Region1
import proofs.«180432_g81776177316087_cont_9to1_m_1181_4_alg».proof.Proof.KernelIdeal.Region2
import proofs.«180432_g81776177316087_cont_9to1_m_1181_4_alg».proof.Proof.KernelIdeal.Region3
import proofs.«180432_g81776177316087_cont_9to1_m_1181_4_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After the second host stretch (region 3's entry). -/
abbrev W5 : Dev nD → Valuation τ sig (Elt F) := fun c => StableHlo.after hostOps3 (W4 m ρ c)
abbrev U5 : (c : Dev nD) → (b : Ref sig .tc) → Buf (Elt F) ((c : Thread nD τ).loc b) := fun c b => W5 m ρ c b

/-- At region 3's exit: its arrays at what the pipeline leaves (the inputs as entered, each output's write-backs
    folded), every other buffer as entered. -/
def W6 (c : Dev nD) : Valuation τ sig (Elt F) :=
  Pipeline.withArrays spec3 c (W5 m ρ c) fun w => (dat3 (U5 m ρ) c).arrAt w cfg3.N
theorem W6_arr (c : Dev nD) (w : Fin cfg3.W) :
    W6 m ρ c (Proc.devRef .tc (Pipeline.arrRef spec3 w)) = (dat3 (U5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the core's references. -/
abbrev U6 : (c : Dev nD) → (b : Ref sig .tc) → Buf (Elt F) ((c : Thread nD τ).loc b) := fun c b => W6 m ρ c b
theorem hF3 (c : Dev nD) (w : Fin cfg3.W) : (dat3 (U5 m ρ) c).arrAt w cfg3.N = U6 m ρ c (Pipeline.arrRef spec3 w) :=
  (W6_arr m ρ c w).symm
theorem hrest3 (c : Dev nD) : ∀ b, b ∉ Finset.univ.image (Pipeline.arrRef spec3) → U6 m ρ c b = U5 m ρ c b :=
  fun b hb => W6_of_ne m ρ c b fun w e => hb (Finset.mem_image.mpr ⟨w, Finset.mem_univ _, e⟩)

/-! ## What each item leaves unchanged -/

theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W5_keep (c : Dev nD) (b : Ref sig .tc) (hb : b ∉ hostOps3_W) : W5 m ρ c (Proc.devRef .tc b) = W4 m ρ c (Proc.devRef .tc b) :=
  StableHlo.after_of_writes_sub hostOps3 _ hostOps3_writes hb
/-- A region leaves the array of an input window as it found it. -/
theorem W2_in0 (c : Dev nD) : W2 m ρ c (Proc.devRef .tc main_arg0) = W1 m ρ c (Proc.devRef .tc main_arg0) :=
  (W2_arr m ρ c 0).trans (((dat0 (U1 m ρ) c).arrAt_in 0 rfl _).trans (A_eq0 (U1 m ρ) c 0))
theorem W2_in1 (c : Dev nD) : W2 m ρ c (Proc.devRef .tc main_v0) = W1 m ρ c (Proc.devRef .tc main_v0) :=
  (W2_arr m ρ c 1).trans (((dat0 (U1 m ρ) c).arrAt_in 1 rfl _).trans (A_eq0 (U1 m ρ) c 1))
theorem W3_in0 (c : Dev nD) : W3 m ρ c (Proc.devRef .tc main_arg1) = W2 m ρ c (Proc.devRef .tc main_arg1) :=
  (W3_arr m ρ c 0).trans (((dat1 (U2 m ρ) c).arrAt_in 0 rfl _).trans (A_eq1 (U2 m ρ) c 0))
theorem W3_in1 (c : Dev nD) : W3 m ρ c (Proc.devRef .tc main_v3) = W2 m ρ c (Proc.devRef .tc main_v3) :=
  (W3_arr m ρ c 1).trans (((dat1 (U2 m ρ) c).arrAt_in 1 rfl _).trans (A_eq1 (U2 m ρ) c 1))
theorem W4_in0 (c : Dev nD) : W4 m ρ c (Proc.devRef .tc main_arg1) = W3 m ρ c (Proc.devRef .tc main_arg1) :=
  (W4_arr m ρ c 0).trans (((dat2 (U3 m ρ) c).arrAt_in 0 rfl _).trans (A_eq2 (U3 m ρ) c 0))
theorem W4_in1 (c : Dev nD) : W4 m ρ c (Proc.devRef .tc main_v4_1) = W3 m ρ c (Proc.devRef .tc main_v4_1) :=
  (W4_arr m ρ c 1).trans (((dat2 (U3 m ρ) c).arrAt_in 1 rfl _).trans (A_eq2 (U3 m ρ) c 1))
theorem W6_in0 (c : Dev nD) : W6 m ρ c (Proc.devRef .tc main_arg1) = W5 m ρ c (Proc.devRef .tc main_arg1) :=
  (W6_arr m ρ c 0).trans (((dat3 (U5 m ρ) c).arrAt_in 0 rfl _).trans (A_eq3 (U5 m ρ) c 0))
theorem W6_in5 (c : Dev nD) : W6 m ρ c (Proc.devRef .tc main_arg8) = W5 m ρ c (Proc.devRef .tc main_arg8) :=
  (W6_arr m ρ c 5).trans (((dat3 (U5 m ρ) c).arrAt_in 5 rfl _).trans (A_eq3 (U5 m ρ) c 5))

/-! ## The arguments end as launched -/

theorem W6_main_arg0 (c : Dev nD) : W6 m ρ c (Proc.devRef .tc main_arg0) = m ((c : Thread nD τ).loc main_arg0) :=
  (W6_of_ne m ρ c main_arg0 (by decide)).trans <| (W5_keep m ρ c main_arg0 (by decide)).trans <| (W4_of_ne m ρ c main_arg0 (by decide)).trans <|
    (W3_of_ne m ρ c main_arg0 (by decide)).trans <| (W2_in0 m ρ c).trans <| (W1_keep m ρ c main_arg0 (by decide)).trans rfl
theorem W6_main_arg1 (c : Dev nD) : W6 m ρ c (Proc.devRef .tc main_arg1) = m ((c : Thread nD τ).loc main_arg1) :=
  (W6_in0 m ρ c).trans <| (W5_keep m ρ c main_arg1 (by decide)).trans <| (W4_in0 m ρ c).trans <|
    (W3_in0 m ρ c).trans <| (W2_of_ne m ρ c main_arg1 (by decide)).trans <| (W1_keep m ρ c main_arg1 (by decide)).trans rfl
/-- An argument no region stages and no host operation writes. -/
theorem W6_host_arg (c : Dev nD) (b : Ref sig .tc) (h3 : ∀ w, Pipeline.arrRef spec3 w ≠ b) (h5 : b ∉ hostOps3_W) (h2 : ∀ w, Pipeline.arrRef spec2 w ≠ b)
    (h1 : ∀ w, Pipeline.arrRef spec1 w ≠ b) (h0 : ∀ w, Pipeline.arrRef spec0 w ≠ b) (hh : b ∉ hostOps0_W) :
    W6 m ρ c (Proc.devRef .tc b) = W0 m ρ c (Proc.devRef .tc b) :=
  (W6_of_ne m ρ c b h3).trans <| (W5_keep m ρ c b h5).trans <| (W4_of_ne m ρ c b h2).trans <|
    (W3_of_ne m ρ c b h1).trans <| (W2_of_ne m ρ c b h0).trans <| (W1_keep m ρ c b hh)
theorem W6_main_arg2 (c : Dev nD) : W6 m ρ c (Proc.devRef .tc main_arg2) = m ((c : Thread nD τ).loc main_arg2) :=
  W6_host_arg m ρ c main_arg2 (by decide) (by decide) (by decide) (by decide) (by decide) (by decide)
theorem W6_main_arg3 (c : Dev nD) : W6 m ρ c (Proc.devRef .tc main_arg3) = m ((c : Thread nD τ).loc main_arg3) :=
  W6_host_arg m ρ c main_arg3 (by decide) (by decide) (by decide) (by decide) (by decide) (by decide)
theorem W6_main_arg4 (c : Dev nD) : W6 m ρ c (Proc.devRef .tc main_arg4) = m ((c : Thread nD τ).loc main_arg4) :=
  W6_host_arg m ρ c main_arg4 (by decide) (by decide) (by decide) (by decide) (by decide) (by decide)
theorem W6_main_arg5 (c : Dev nD) : W6 m ρ c (Proc.devRef .tc main_arg5) = m ((c : Thread nD τ).loc main_arg5) :=
  W6_host_arg m ρ c main_arg5 (by decide) (by decide) (by decide) (by decide) (by decide) (by decide)
theorem W6_main_arg6 (c : Dev nD) : W6 m ρ c (Proc.devRef .tc main_arg6) = m ((c : Thread nD τ).loc main_arg6) :=
  W6_host_arg m ρ c main_arg6 (by decide) (by decide) (by decide) (by decide) (by decide) (by decide)
theorem W6_main_arg7 (c : Dev nD) : W6 m ρ c (Proc.devRef .tc main_arg7) = m ((c : Thread nD τ).loc main_arg7) :=
  W6_host_arg m ρ c main_arg7 (by decide) (by decide) (by decide) (by decide) (by decide) (by decide)
theorem W6_main_arg8 (c : Dev nD) : W6 m ρ c (Proc.devRef .tc main_arg8) = m ((c : Thread nD τ).loc main_arg8) :=
  (W6_in5 m ρ c).trans <| (W5_keep m ρ c main_arg8 (by decide)).trans <| (W4_of_ne m ρ c main_arg8 (by decide)).trans <|
    (W3_of_ne m ρ c main_arg8 (by decide)).trans <| (W2_of_ne m ρ c main_arg8 (by decide)).trans <| (W1_keep m ρ c main_arg8 (by decide)).trans rfl
theorem W6_main_arg9 (c : Dev nD) : W6 m ρ c (Proc.devRef .tc main_arg9) = m ((c : Thread nD τ).loc main_arg9) :=
  W6_host_arg m ρ c main_arg9 (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U5 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment over the thread state: entered with every unscoped buffer at W1, left with them at W2.
    Its arrays are split out of the unscoped buffers on entry and put back at what the write-backs leave on exit;
    the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at W2, left with them at W3.
    Its arrays are split out of the unscoped buffers on entry and put back at what the write-backs leave on exit;
    the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state: entered with every unscoped buffer at W3, left with them at W4.
    Its arrays are split out of the unscoped buffers on entry and put back at what the write-backs leave on exit;
    the generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment over the thread state: entered with every unscoped buffer at W5, left with them at W6.
    Its arrays are split out of the unscoped buffers on entry and put back at what the write-backs leave on exit;
    the generator register goes into the pipeline's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U5 m ρ c) (U6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev items : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ) ]
theorem main_run (c : Dev nD) : main (F := F) c = Pipeline.Seg.run (items m ρ) := (main_chain c).trans (by chain_rfl)

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩) (run_all m ρ)

end Cert.KernelIdeal.Frame

end
-- ==== Proof.Spec.lean ====
/-
  The mathematics of the three-order graph convolution, over the extended reals.  With x the node features, adj the
  adjacency matrix, W1 W2 W3 the order weights, b1 b2 b3 their biases and Wfc, bfc the classifier:
    h_r = adj^r · (x · W_r) + b_r   (r = 1, 2, 3),   out = logistic(max([h1 | h2 | h3], 0) · Wfc + bfc).
  One program multiplies by each W_r separately; the other multiplies x once by [W1 | W2 | W3] and lets the three orders
  share each pass over adj, splitting the product by columns afterwards.  The two agree because a matrix product is
  computed column by column: the columns [o, o+n) of A · B are A times the columns [o, o+n) of B — the same sums,
  term by term, so no law of the reals beyond that is used and infinite entries are harmless.
-/
import Idealize.ShloMosaic.PureOps.Ideal
import Idealize.ShloMosaic.Lib.ValueIdx

noncomputable section

open scoped BigOperators

namespace Cert.Spec

open Idealize.ShloMosaic Idealize.ShloMosaic.ValueIdx

/-- An M × N matrix of extended reals. -/
abbrev Mat (M N : Nat) : Type := (⟨2, ![M, N]⟩ : Shape).Idx → EReal
/-- A vector of N extended reals. -/
abbrev Vc (N : Nat) : Type := (⟨1, ![N]⟩ : Shape).Idx → EReal

/-- The matrix product: entry (p, q) is the sum over k of A(p, k) · B(k, q). -/
def mm {M K N : Nat} (A : Mat M K) (B : Mat K N) : Mat M N :=
  fun j => ∑ k : Fin K, A (ix2 (j 0) k) * B (ix2 k (j 1))

theorem mm_apply {M K N : Nat} (A : Mat M K) (B : Mat K N) (p : Fin M) (q : Fin N) :
    mm A B (ix2 p q) = ∑ k : Fin K, A (ix2 p k) * B (ix2 k q) := rfl

/-- The columns [o, o + n) of a matrix. -/
def cols {M N : Nat} (o n : Nat) (h : o + n ≤ N) (A : Mat M N) : Mat M n :=
  fun j => A (ix2 (j 0) ⟨o + (j 1).val, Nat.lt_of_lt_of_le (Nat.add_lt_add_left (idx2_lt1 j) o) h⟩)

theorem cols_apply {M N : Nat} (o n : Nat) (h : o + n ≤ N) (A : Mat M N) (p : Fin M) (q : Fin n) :
    cols o n h A (ix2 p q) = A (ix2 p ⟨o + q.val, Nat.lt_of_lt_of_le (Nat.add_lt_add_left q.isLt o) h⟩) := rfl

/-- A column range of a product is the product with that column range of the right factor. -/
theorem cols_mm {M K N : Nat} (o n : Nat) (h : o + n ≤ N) (A : Mat M K) (B : Mat K N) :
    cols o n h (mm A B) = mm A (cols o n h B) := rfl

/-- Three 128-column matrices side by side. -/
def hcat3 {M : Nat} (A B C : Mat M 128) : Mat M 384 := fun j =>
  if h : (j 1).val < 128 then A (ix2 (j 0) ⟨(j 1).val, h⟩)
  else if h2 : (j 1).val < 256 then B (ix2 (j 0) ⟨(j 1).val - 128, by omega⟩)
  else C (ix2 (j 0) ⟨(j 1).val - 256, by have := idx2_lt1 j; omega⟩)

/-- Two 128-column matrices side by side. -/
def hcat2 {M : Nat} (B C : Mat M 128) : Mat M 256 := fun j =>
  if h : (j 1).val < 128 then B (ix2 (j 0) ⟨(j 1).val, h⟩)
  else C (ix2 (j 0) ⟨(j 1).val - 128, by have := idx2_lt1 j; omega⟩)

/-- Three vectors of 128 entries end to end. -/
def vcat3 (a b c : Vc 128) : Vc 384 := fun j =>
  if h : (j 0).val < 128 then a (ix1 ⟨(j 0).val, h⟩)
  else if h2 : (j 0).val < 256 then b (ix1 ⟨(j 0).val - 128, by omega⟩)
  else c (ix1 ⟨(j 0).val - 256, by have : (j 0).val < 384 := (j 0).isLt; omega⟩)

theorem hcat3_left {M : Nat} (A B C : Mat M 128) (p : Fin M) (q : Fin 384) (h : q.val < 128) :
    hcat3 A B C (ix2 p q) = A (ix2 p ⟨q.val, h⟩) := by
  unfold hcat3
  rw [dif_pos (show ((ix2 p q : (⟨2, ![M, 384]⟩ : Shape).Idx) 1).val < 128 from h)]
  rfl
theorem hcat3_mid {M : Nat} (A B C : Mat M 128) (p : Fin M) (q : Fin 384) (h1 : ¬ q.val < 128) (h2 : q.val < 256) :
    hcat3 A B C (ix2 p q) = B (ix2 p ⟨q.val - 128, by omega⟩) := by
  unfold hcat3
  rw [dif_neg (show ¬ ((ix2 p q : (⟨2, ![M, 384]⟩ : Shape).Idx) 1).val < 128 from h1),
    dif_pos (show ((ix2 p q : (⟨2, ![M, 384]⟩ : Shape).Idx) 1).val < 256 from h2)]
  rfl
theorem hcat3_right {M : Nat} (A B C : Mat M 128) (p : Fin M) (q : Fin 384) (h1 : ¬ q.val < 128) (h2 : ¬ q.val < 256) :
    hcat3 A B C (ix2 p q) = C (ix2 p ⟨q.val - 256, by have := q.isLt; omega⟩) := by
  unfold hcat3
  rw [dif_neg (show ¬ ((ix2 p q : (⟨2, ![M, 384]⟩ : Shape).Idx) 1).val < 128 from h1),
    dif_neg (show ¬ ((ix2 p q : (⟨2, ![M, 384]⟩ : Shape).Idx) 1).val < 256 from h2)]
  rfl
theorem hcat2_left {M : Nat} (B C : Mat M 128) (p : Fin M) (q : Fin 256) (h : q.val < 128) :
    hcat2 B C (ix2 p q) = B (ix2 p ⟨q.val, h⟩) := by
  unfold hcat2
  rw [dif_pos (show ((ix2 p q : (⟨2, ![M, 256]⟩ : Shape).Idx) 1).val < 128 from h)]
  rfl
theorem hcat2_right {M : Nat} (B C : Mat M 128) (p : Fin M) (q : Fin 256) (h : ¬ q.val < 128) :
    hcat2 B C (ix2 p q) = C (ix2 p ⟨q.val - 128, by have := q.isLt; omega⟩) := by
  unfold hcat2
  rw [dif_neg (show ¬ ((ix2 p q : (⟨2, ![M, 256]⟩ : Shape).Idx) 1).val < 128 from h)]
  rfl
theorem vcat3_left (a b c : Vc 128) (q : Fin 384) (h : q.val < 128) : vcat3 a b c (ix1 q) = a (ix1 ⟨q.val, h⟩) := by
  unfold vcat3
  rw [dif_pos (show ((ix1 q : (⟨1, ![384]⟩ : Shape).Idx) 0).val < 128 from h)]
theorem vcat3_mid (a b c : Vc 128) (q : Fin 384) (h1 : ¬ q.val < 128) (h2 : q.val < 256) :
    vcat3 a b c (ix1 q) = b (ix1 ⟨q.val - 128, by omega⟩) := by
  unfold vcat3
  rw [dif_neg (show ¬ ((ix1 q : (⟨1, ![384]⟩ : Shape).Idx) 0).val < 128 from h1),
    dif_pos (show ((ix1 q : (⟨1, ![384]⟩ : Shape).Idx) 0).val < 256 from h2)]
theorem vcat3_right (a b c : Vc 128) (q : Fin 384) (h1 : ¬ q.val < 128) (h2 : ¬ q.val < 256) :
    vcat3 a b c (ix1 q) = c (ix1 ⟨q.val - 256, by have := q.isLt; omega⟩) := by
  unfold vcat3
  rw [dif_neg (show ¬ ((ix1 q : (⟨1, ![384]⟩ : Shape).Idx) 0).val < 128 from h1),
    dif_neg (show ¬ ((ix1 q : (⟨1, ![384]⟩ : Shape).Idx) 0).val < 256 from h2)]

theorem cols_hcat3_0 {M : Nat} (A B C : Mat M 128) : cols 0 128 (by omega) (hcat3 A B C) = A := by
  funext j
  obtain ⟨p, q, rfl⟩ : ∃ (p : Fin M) (q : Fin 128), j = ix2 p q := ⟨j 0, j 1, eq_ix2 j⟩
  rw [cols_apply, hcat3_left A B C p _ (by show 0 + q.val < 128; have := q.isLt; omega)]
  exact congrArg A (congrArg (ix2 p) (Fin.ext (by show 0 + q.val = q.val; omega)))

theorem cols_hcat3_1 {M : Nat} (A B C : Mat M 128) : cols 128 256 (by omega) (hcat3 A B C) = hcat2 B C := by
  funext j
  obtain ⟨p, q, rfl⟩ : ∃ (p : Fin M) (q : Fin 256), j = ix2 p q := ⟨j 0, j 1, eq_ix2 j⟩
  rw [cols_apply]
  by_cases h1 : q.val < 128
  · rw [hcat3_mid A B C p _ (by show ¬ (128 + q.val < 128); omega) (by show 128 + q.val < 256; omega), hcat2_left B C p q h1]
    exact congrArg B (congrArg (ix2 p) (Fin.ext (by show 128 + q.val - 128 = q.val; omega)))
  · rw [hcat3_right A B C p _ (by show ¬ (128 + q.val < 128); omega) (by show ¬ (128 + q.val < 256); omega), hcat2_right B C p q h1]
    exact congrArg C (congrArg (ix2 p) (Fin.ext (by show 128 + q.val - 256 = q.val - 128; omega)))

theorem cols_hcat2_0 {M : Nat} (B C : Mat M 128) : cols 0 128 (by omega) (hcat2 B C) = B := by
  funext j
  obtain ⟨p, q, rfl⟩ : ∃ (p : Fin M) (q : Fin 128), j = ix2 p q := ⟨j 0, j 1, eq_ix2 j⟩
  rw [cols_apply, hcat2_left B C p _ (by show 0 + q.val < 128; have := q.isLt; omega)]
  exact congrArg B (congrArg (ix2 p) (Fin.ext (by show 0 + q.val = q.val; omega)))

theorem cols_hcat2_1 {M : Nat} (B C : Mat M 128) : cols 128 128 (by omega) (hcat2 B C) = C := by
  funext j
  obtain ⟨p, q, rfl⟩ : ∃ (p : Fin M) (q : Fin 128), j = ix2 p q := ⟨j 0, j 1, eq_ix2 j⟩
  rw [cols_apply, hcat2_right B C p _ (by show ¬ (128 + q.val < 128); omega)]
  exact congrArg C (congrArg (ix2 p) (Fin.ext (by show 128 + q.val - 128 = q.val; omega)))

/-- A row vector added to every row of a matrix. -/
def addRow {M N : Nat} (H : Mat M N) (b : Vc N) : Mat M N := fun j => H j + b (ix1 (j 1))

/-- Adding the joined bias to the joined matrix is joining the three biased matrices. -/
theorem addRow_apply {M N : Nat} (H : Mat M N) (b : Vc N) (p : Fin M) (q : Fin N) : addRow H b (ix2 p q) = H (ix2 p q) + b (ix1 q) := rfl

theorem addRow_hcat3 {M : Nat} (A B C : Mat M 128) (a b c : Vc 128) :
    addRow (hcat3 A B C) (vcat3 a b c) = hcat3 (addRow A a) (addRow B b) (addRow C c) := by
  funext j
  obtain ⟨p, q, rfl⟩ : ∃ (p : Fin M) (q : Fin 384), j = ix2 p q := ⟨j 0, j 1, eq_ix2 j⟩
  rw [addRow_apply]
  by_cases h1 : q.val < 128
  · rw [hcat3_left _ _ _ p q h1, hcat3_left _ _ _ p q h1, vcat3_left a b c q h1, addRow_apply]
  · by_cases h2 : q.val < 256
    · rw [hcat3_mid _ _ _ p q h1 h2, hcat3_mid _ _ _ p q h1 h2, vcat3_mid a b c q h1 h2, addRow_apply]
    · rw [hcat3_right _ _ _ p q h1 h2, hcat3_right _ _ _ p q h1 h2, vcat3_right a b c q h1 h2, addRow_apply]

/-- The float zero the rectifier compares with. -/
def zeroF : EReal := Ideal.ofBits .f32 0x00000000#32

/-- The classifier head: rectify, multiply by the classifier matrix, add its bias, apply the logistic function. -/
def head {M : Nat} (H : Mat M 384) (Wfc : Mat 384 64) (bfc : Vc 64) : Mat M 64 := fun j =>
  Ideal.logistic ((∑ k : Fin 384, max (H (ix2 (j 0) k)) zeroF * Wfc (ix2 k (j 1))) + bfc (ix1 (j 1)))

/-- The one row of a 1 × N matrix, as a vector. -/
def row {N : Nat} (r : Mat 1 N) : Vc N := fun j => r (ix2 0 (j 0))

/-- The result as the kernel program arranges it: one product with the joined weights, three passes over adj shared by
    the orders, the column ranges split off after each pass. -/
def viaJoined {M : Nat} (x : Mat M 128) (adj : Mat M M) (W1 W2 W3 : Mat 128 128) (b1 b2 b3 : Vc 128)
    (Wfc : Mat 384 64) (bfc : Vc 64) : Mat M 64 :=
  head (addRow (hcat3 (cols 0 128 (by omega) (mm adj (mm x (hcat3 W1 W2 W3))))
      (cols 0 128 (by omega) (mm adj (cols 128 256 (by omega) (mm adj (mm x (hcat3 W1 W2 W3))))))
      (mm adj (cols 128 128 (by omega) (mm adj (cols 128 256 (by omega) (mm adj (mm x (hcat3 W1 W2 W3))))))))
    (vcat3 b1 b2 b3)) Wfc bfc

/-- The result as the reference arranges it: each order by itself. -/
def perOrder {M : Nat} (x : Mat M 128) (adj : Mat M M) (W1 W2 W3 : Mat 128 128) (b1 b2 b3 : Vc 128)
    (Wfc : Mat 384 64) (bfc : Vc 64) : Mat M 64 :=
  head (hcat3 (addRow (mm adj (mm x W1)) b1) (addRow (mm adj (mm adj (mm x W2))) b2)
    (addRow (mm adj (mm adj (mm adj (mm x W3)))) b3)) Wfc bfc

/-- The two arrangements are one function. -/
theorem viaJoined_eq_perOrder {M : Nat} (x : Mat M 128) (adj : Mat M M) (W1 W2 W3 : Mat 128 128) (b1 b2 b3 : Vc 128)
    (Wfc : Mat 384 64) (bfc : Vc 64) :
    viaJoined x adj W1 W2 W3 b1 b2 b3 Wfc bfc = perOrder x adj W1 W2 W3 b1 b2 b3 Wfc bfc := by
  unfold viaJoined perOrder
  rw [addRow_hcat3]
  simp only [cols_mm, cols_hcat3_0, cols_hcat3_1, cols_hcat2_0, cols_hcat2_1]

end Cert.Spec

end
-- ==== Proof.SpecRows.lean ====
/-
  Row ranges.  A kernel region computes its result 400 rows at a time; each of the operations of the specification
  acts on rows independently, so the rows [o, o+n) of a result are the same operation of the rows [o, o+n) of its
  row-wise operands.
-/
import proofs.«180432_g81776177316087_cont_9to1_m_1181_4_alg».proof.Proof.Spec

noncomputable section

open scoped BigOperators

namespace Cert.Spec

open Idealize.ShloMosaic Idealize.ShloMosaic.ValueIdx

/-- The rows [o, o + n) of a matrix. -/
def rows {M N : Nat} (o n : Nat) (h : o + n ≤ M) (A : Mat M N) : Mat n N :=
  fun j => A (ix2 ⟨o + (j 0).val, Nat.lt_of_lt_of_le (Nat.add_lt_add_left (idx2_lt0 j) o) h⟩ (j 1))

theorem rows_apply {M N : Nat} (o n : Nat) (h : o + n ≤ M) (A : Mat M N) (p : Fin n) (q : Fin N) :
    rows o n h A (ix2 p q) = A (ix2 ⟨o + p.val, Nat.lt_of_lt_of_le (Nat.add_lt_add_left p.isLt o) h⟩ q) := rfl

/-- Rows of a product: the product of those rows of the left factor. -/
theorem rows_mm {M K N : Nat} (o n : Nat) (h : o + n ≤ M) (A : Mat M K) (B : Mat K N) :
    rows o n h (mm A B) = mm (rows o n h A) B := rfl

theorem rows_cols {M N : Nat} (o n : Nat) (h : o + n ≤ M) (o' n' : Nat) (h' : o' + n' ≤ N) (A : Mat M N) :
    rows o n h (cols o' n' h' A) = cols o' n' h' (rows o n h A) := rfl

theorem rows_hcat3 {M : Nat} (o n : Nat) (h : o + n ≤ M) (A B C : Mat M 128) :
    rows o n h (hcat3 A B C) = hcat3 (rows o n h A) (rows o n h B) (rows o n h C) := rfl

theorem rows_addRow {M N : Nat} (o n : Nat) (h : o + n ≤ M) (H : Mat M N) (b : Vc N) :
    rows o n h (addRow H b) = addRow (rows o n h H) b := rfl

theorem rows_head {M : Nat} (o n : Nat) (h : o + n ≤ M) (H : Mat M 384) (Wfc : Mat 384 64) (bfc : Vc 64) :
    rows o n h (head H Wfc bfc) = head (rows o n h H) Wfc bfc := rfl

/-- A function read through an embedding that shifts the row by o and keeps the column is the row range. -/
theorem rows_of_emb {M N n : Nat} (o : Nat) (h : o + n ≤ M) (A : Mat M N)
    (e : (⟨2, ![n, N]⟩ : Shape).Idx → (⟨2, ![M, N]⟩ : Shape).Idx)
    (he0 : ∀ y, (e y 0).val = o + (y 0).val) (he1 : ∀ y, (e y 1).val = (y 1).val) :
    (fun y => A (e y)) = rows o n h A := by
  funext y
  refine congrArg A (funext fun a => ?_)
  match a with
  | ⟨0, _⟩ => exact Fin.ext (he0 y)
  | ⟨1, _⟩ => exact Fin.ext (he1 y)

/-- A function read through an embedding that keeps both coordinates is the function. -/
theorem self_of_emb {M N : Nat} (A : Mat M N) (e : (⟨2, ![M, N]⟩ : Shape).Idx → (⟨2, ![M, N]⟩ : Shape).Idx)
    (he0 : ∀ y, (e y 0).val = (y 0).val) (he1 : ∀ y, (e y 1).val = (y 1).val) :
    (fun y => A (e y)) = A := by
  funext y
  refine congrArg A (funext fun a => ?_)
  match a with
  | ⟨0, _⟩ => exact Fin.ext (he0 y)
  | ⟨1, _⟩ => exact Fin.ext (he1 y)

end Cert.Spec

end
-- ==== Proof.KernelIdeal.Blocks0.lean ====
/-
  Region 0, from blocks to the array.  Grid point t handles rows [400t, 400t + 400): its block of x is those rows of x,
  its right-hand side is the whole joined weight matrix, and what it writes back is those rows of the result.  Since
  the rows of a product are the product of the rows, and the 25 blocks cover all 10000 rows, the array t ends holding
  x · [W1|W2|W3].
-/
import proofs.«180432_g81776177316087_cont_9to1_m_1181_4_alg».proof.Proof.KernelIdeal.Region0
import proofs.«180432_g81776177316087_cont_9to1_m_1181_4_alg».proof.Proof.SpecRows
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

-- the core's buffer contents, as extended reals, when the region is entered
variable (V : (c : Dev nD) → (b : Ref sig .tc) → Buf (Elt Ideal) ((c : Thread nD τ).loc b))

theorem tlt0 (t : Fin cfg0.N) : t.val * 400 + 400 ≤ 10000 := by
  have h : t.val < 25 := lt_of_lt_of_eq t.isLt N_0
  omega

/-- The index maps over the grid: a row-blocked window sits at block (t, 0), a whole window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block at point t is rows [400t, 400t+400) of x. -/
theorem iblk0_0_eq (c : Dev nD) (t : Fin cfg0.N) :
    iblk0 (F := Ideal) V c 0 t = Spec.rows (t.val * 400) 400 (tlt0 t) (V c main_arg0) := by
  obtain ⟨e0, e1, -, -, -, -⟩ := idx0 t
  refine Eq.trans ?_ (Spec.rows_of_emb (t.val * 400) (tlt0 t) (V c main_arg0) (((cfg0.win 0).blk t).view.emb) ?_ ?_)
  · rfl
  · intro y; show win0_0.index t (0 : Fin 2) * 400 + 1 * (y 0).val = t.val * 400 + (y 0).val; rw [e0]; omega
  · intro y; show win0_0.index t (1 : Fin 2) * 128 + 1 * (y 1).val = (y 1).val; rw [e1]; omega

/-- The right-hand side's block is the whole matrix. -/
theorem iblk0_1_eq (c : Dev nD) (t : Fin cfg0.N) : iblk0 (F := Ideal) V c 1 t = V c main_v0 := by
  obtain ⟨-, -, e2, e3, -, -⟩ := idx0 t
  refine Eq.trans ?_ (Spec.self_of_emb (V c main_v0) (((cfg0.win 1).blk t).view.emb) ?_ ?_)
  · rfl
  · intro y; show win0_1.index t (0 : Fin 2) * 128 + 1 * (y 0).val = (y 0).val; rw [e2]; omega
  · intro y; show win0_1.index t (1 : Fin 2) * 384 + 1 * (y 1).val = (y 1).val; rw [e3]; omega

/-- Block t of an array of the output's shape is its rows [400t, 400t+400). -/
theorem blk0_2_read (G : Spec.Mat 10000 384) (t : Fin cfg0.N) :
    ((cfg0.win 2).blk t).view.read (Elt Ideal) G = Spec.rows (t.val * 400) 400 (tlt0 t) G := by
  obtain ⟨-, -, -, -, e4, e5⟩ := idx0 t
  refine Eq.trans ?_ (Spec.rows_of_emb (t.val * 400) (tlt0 t) G (((cfg0.win 2).blk t).view.emb) ?_ ?_)
  · rfl
  · intro y; show win0_2.index t (0 : Fin 2) * 400 + 1 * (y 0).val = t.val * 400 + (y 0).val; rw [e4]; omega
  · intro y; show win0_2.index t (1 : Fin 2) * 384 + 1 * (y 1).val = (y 1).val; rw [e5]; omega

theorem mem_blk0_2 (t : Fin cfg0.N) (i : S10000x384.Idx) :
    i ∈ ((cfg0.win 2).blk t).view.set ↔ ∀ a : Fin 2, win0_2.index t a * S400x384.size a ≤ (i a).val ∧ (i a).val < win0_2.index t a * S400x384.size a + S400x384.size a := by
  show i ∈ ((View.whole main_v3).slice (win0_2.rect t)).set ↔ _
  rw [View.set_slice_whole, Rect.mem_set_unit]
  exact Iff.rfl

/-- Every row lies in the block of the point that handles it. -/
theorem cover0_2arr (i : S10000x384.Idx) : ∃ t : Fin cfg0.N, (cfg0.win 2).flush t = true ∧ i ∈ ((cfg0.win 2).blk t).view.set := by
  have hi0 : (i 0).val < 10000 := (i 0).isLt
  have hi1 : (i 1).val < 384 := (i 1).isLt
  have ht : (i 0).val / 400 < cfg0.N := lt_of_lt_of_eq (by omega) N_0.symm
  obtain ⟨-, -, -, -, e4, e5⟩ := idx0 ⟨(i 0).val / 400, ht⟩
  refine ⟨⟨(i 0).val / 400, ht⟩, flush0_2 _, ?_⟩
  rw [mem_blk0_2]
  intro a
  match a with
  | ⟨0, _⟩ =>
    show win0_2.index ⟨(i 0).val / 400, ht⟩ (0 : Fin 2) * 400 ≤ (i 0).val ∧ (i 0).val < win0_2.index ⟨(i 0).val / 400, ht⟩ (0 : Fin 2) * 400 + 400
    rw [e4]; show (i 0).val / 400 * 400 ≤ (i 0).val ∧ (i 0).val < (i 0).val / 400 * 400 + 400; omega
  | ⟨1, _⟩ =>
    show win0_2.index ⟨(i 0).val / 400, ht⟩ (1 : Fin 2) * 384 ≤ (i 1).val ∧ (i 1).val < win0_2.index ⟨(i 0).val / 400, ht⟩ (1 : Fin 2) * 384 + 384
    rw [e5]; omega

/-- The array t after region 0 is x · [W1|W2|W3], given what a block's body computes. -/
theorem arr0_2 (hpay : ∀ (x0 : Vec Ideal S400x128 .f32) (x1 : Vec Ideal S128x384 .f32), out0_2 (F := Ideal) x0 x1 = Spec.mm x0 x1) (c : Dev nD) :
    (dat0 V c).arrAt 2 cfg0.N = Spec.mm (V c main_arg0) (V c main_v0) := by
  refine (dat0 V c).arrAt_eq_of_cover 2 _ (fun t _ => ?_) cover0_2arr
  show (cfg0.win 2).cut (grid0.coords t) ((dat0 V c).after 2 t) = _
  rw [after0_2, hpay, iblk0_0_eq, iblk0_1_eq, blk0_2_read, Spec.rows_mm]
  rfl

end Cert.KernelIdeal.Blocks

end
-- ==== Proof.KernelIdeal.Blocks1.lean ====
/-
  Region 1, from blocks to the arrays.  Grid point t handles rows [400t, 400t + 400) of adj: its right-hand side is the
  whole matrix t, and it writes back those rows of the two column ranges of adj · t.  Rows and column ranges of a
  product are taken factor by factor, and the 25 blocks cover all 10000 rows, so the two result arrays end holding
  columns [0,128) and [128,384) of adj · t.
-/
import proofs.«180432_g81776177316087_cont_9to1_m_1181_4_alg».proof.Proof.KernelIdeal.Region1
import proofs.«180432_g81776177316087_cont_9to1_m_1181_4_alg».proof.Proof.SpecRows
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

-- the core's buffer contents, as extended reals, when the region is entered
variable (V : (c : Dev nD) → (b : Ref sig .tc) → Buf (Elt Ideal) ((c : Thread nD τ).loc b))

theorem tlt1 (t : Fin cfg1.N) : t.val * 400 + 400 ≤ 10000 := by
  have h : t.val < 25 := lt_of_lt_of_eq t.isLt N_1
  omega

/-- The index maps over the grid: a row-blocked window sits at block (t, 0), a whole window at (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

/-- The adjacency block at point t is rows [400t, 400t+400) of adj. -/
theorem iblk1_0_eq (c : Dev nD) (t : Fin cfg1.N) :
    iblk1 (F := Ideal) V c 0 t = Spec.rows (t.val * 400) 400 (tlt1 t) (V c main_arg1) := by
  obtain ⟨e0, e1⟩ := idx1_0 t
  refine Eq.trans ?_ (Spec.rows_of_emb (t.val * 400) (tlt1 t) (V c main_arg1) (((cfg1.win 0).blk t).view.emb) ?_ ?_)
  · rfl
  · intro y; show win1_0.index t (0 : Fin 2) * 400 + 1 * (y 0).val = t.val * 400 + (y 0).val; rw [e0]; omega
  · intro y; show win1_0.index t (1 : Fin 2) * 10000 + 1 * (y 1).val = (y 1).val; rw [e1]; omega

/-- The right-hand side's block is the whole matrix. -/
theorem iblk1_1_eq (c : Dev nD) (t : Fin cfg1.N) : iblk1 (F := Ideal) V c 1 t = V c main_v3 := by
  obtain ⟨e0, e1⟩ := idx1_1 t
  refine Eq.trans ?_ (Spec.self_of_emb (V c main_v3) (((cfg1.win 1).blk t).view.emb) ?_ ?_)
  · rfl
  · intro y; show win1_1.index t (0 : Fin 2) * 10000 + 1 * (y 0).val = (y 0).val; rw [e0]; omega
  · intro y; show win1_1.index t (1 : Fin 2) * 384 + 1 * (y 1).val = (y 1).val; rw [e1]; omega

/-- Block t of an array of an output's shape is its rows [400t, 400t+400). -/
theorem blk1_2_read (G : Spec.Mat 10000 128) (t : Fin cfg1.N) :
    ((cfg1.win 2).blk t).view.read (Elt Ideal) G = Spec.rows (t.val * 400) 400 (tlt1 t) G := by
  obtain ⟨e0, e1⟩ := idx1_2 t
  refine Eq.trans ?_ (Spec.rows_of_emb (t.val * 400) (tlt1 t) G (((cfg1.win 2).blk t).view.emb) ?_ ?_)
  · rfl
  · intro y; show win1_2.index t (0 : Fin 2) * 400 + 1 * (y 0).val = t.val * 400 + (y 0).val; rw [e0]; omega
  · intro y; show win1_2.index t (1 : Fin 2) * 128 + 1 * (y 1).val = (y 1).val; rw [e1]; omega
theorem blk1_3_read (G : Spec.Mat 10000 256) (t : Fin cfg1.N) :
    ((cfg1.win 3).blk t).view.read (Elt Ideal) G = Spec.rows (t.val * 400) 400 (tlt1 t) G := by
  obtain ⟨e0, e1⟩ := idx1_3 t
  refine Eq.trans ?_ (Spec.rows_of_emb (t.val * 400) (tlt1 t) G (((cfg1.win 3).blk t).view.emb) ?_ ?_)
  · rfl
  · intro y; show win1_3.index t (0 : Fin 2) * 400 + 1 * (y 0).val = t.val * 400 + (y 0).val; rw [e0]; omega
  · intro y; show win1_3.index t (1 : Fin 2) * 256 + 1 * (y 1).val = (y 1).val; rw [e1]; omega

theorem mem_blk1_2 (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v4_0).slice (win1_2.rect t)).set ↔ _
  rw [View.set_slice_whole, Rect.mem_set_unit]
  exact Iff.rfl
theorem mem_blk1_3 (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v4_1).slice (win1_3.rect t)).set ↔ _
  rw [View.set_slice_whole, Rect.mem_set_unit]
  exact Iff.rfl

/-- Every row lies in the block of the point that handles it. -/
theorem cover1_2arr (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have ht : (i 0).val / 400 < cfg1.N := lt_of_lt_of_eq (by omega) N_1.symm
  obtain ⟨e0, e1⟩ := idx1_2 ⟨(i 0).val / 400, ht⟩
  refine ⟨⟨(i 0).val / 400, ht⟩, flush1_2 _, ?_⟩
  rw [mem_blk1_2]
  intro a
  match a with
  | ⟨0, _⟩ =>
    show win1_2.index ⟨(i 0).val / 400, ht⟩ (0 : Fin 2) * 400 ≤ (i 0).val ∧ (i 0).val < win1_2.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_2.index ⟨(i 0).val / 400, ht⟩ (1 : Fin 2) * 128 ≤ (i 1).val ∧ (i 1).val < win1_2.index ⟨(i 0).val / 400, ht⟩ (1 : Fin 2) * 128 + 128
    rw [e1]; omega
theorem cover1_3arr (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have ht : (i 0).val / 400 < cfg1.N := lt_of_lt_of_eq (by omega) N_1.symm
  obtain ⟨e0, e1⟩ := idx1_3 ⟨(i 0).val / 400, ht⟩
  refine ⟨⟨(i 0).val / 400, ht⟩, flush1_3 _, ?_⟩
  rw [mem_blk1_3]
  intro a
  match a with
  | ⟨0, _⟩ =>
    show win1_3.index ⟨(i 0).val / 400, ht⟩ (0 : Fin 2) * 400 ≤ (i 0).val ∧ (i 0).val < win1_3.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_3.index ⟨(i 0).val / 400, ht⟩ (1 : Fin 2) * 256 ≤ (i 1).val ∧ (i 1).val < win1_3.index ⟨(i 0).val / 400, ht⟩ (1 : Fin 2) * 256 + 256
    rw [e1]; omega

/-- The first result array after region 1 is columns [0,128) of adj · t, given what a block's body computes. -/
theorem arr1_2 (hpay : ∀ (x0 : Vec Ideal S400x10000 .f32) (x1 : Vec Ideal S10000x384 .f32), out1_2 (F := Ideal) x0 x1 = Spec.cols 0 128 (by omega) (Spec.mm x0 x1)) (c : Dev nD) :
    (dat1 V c).arrAt 2 cfg1.N = Spec.cols 0 128 (by omega) (Spec.mm (V c main_arg1) (V c main_v3)) := by
  refine (dat1 V c).arrAt_eq_of_cover 2 _ (fun t _ => ?_) cover1_2arr
  show (cfg1.win 2).cut (grid1.coords t) ((dat1 V c).after 2 t) = _
  rw [after1_2, hpay, iblk1_0_eq, iblk1_1_eq, blk1_2_read, Spec.rows_cols, Spec.rows_mm]
  rfl
/-- The second result array after region 1 is columns [128,384) of adj · t. -/
theorem arr1_3 (hpay : ∀ (x0 : Vec Ideal S400x10000 .f32) (x1 : Vec Ideal S10000x384 .f32), out1_3 (F := Ideal) x0 x1 = Spec.cols 128 256 (by omega) (Spec.mm x0 x1)) (c : Dev nD) :
    (dat1 V c).arrAt 3 cfg1.N = Spec.cols 128 256 (by omega) (Spec.mm (V c main_arg1) (V c main_v3)) := by
  refine (dat1 V c).arrAt_eq_of_cover 3 _ (fun t _ => ?_) cover1_3arr
  show (cfg1.win 3).cut (grid1.coords t) ((dat1 V c).after 3 t) = _
  rw [after1_3, hpay, iblk1_0_eq, iblk1_1_eq, blk1_3_read, Spec.rows_cols, Spec.rows_mm]
  rfl

end Cert.KernelIdeal.Blocks

end
-- ==== Proof.KernelIdeal.Blocks2.lean ====
/-
  Region 2, from blocks to the arrays.  Grid point t handles rows [400t, 400t + 400) of adj: its right-hand side is the
  whole 10000×256 matrix of second- and third-order features, and it writes back those rows of the two column ranges of
  the product.  Rows and column ranges of a product are taken factor by factor, and the 25 blocks cover all 10000
  rows, so the two result arrays end holding columns [0,128) and [128,256) of the product.
-/
import proofs.«180432_g81776177316087_cont_9to1_m_1181_4_alg».proof.Proof.KernelIdeal.Region2
import proofs.«180432_g81776177316087_cont_9to1_m_1181_4_alg».proof.Proof.SpecRows
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

-- the core's buffer contents, as extended reals, when the region is entered
variable (V : (c : Dev nD) → (b : Ref sig .tc) → Buf (Elt Ideal) ((c : Thread nD τ).loc b))

theorem tlt2 (t : Fin cfg2.N) : t.val * 400 + 400 ≤ 10000 := by
  have h : t.val < 25 := lt_of_lt_of_eq t.isLt N_2
  omega

/-- The index maps over the grid: a row-blocked window sits at block (t, 0), a whole window at (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)

/-- The adjacency block at point t is rows [400t, 400t+400) of adj. -/
theorem iblk2_0_eq (c : Dev nD) (t : Fin cfg2.N) :
    iblk2 (F := Ideal) V c 0 t = Spec.rows (t.val * 400) 400 (tlt2 t) (V c main_arg1) := by
  obtain ⟨e0, e1⟩ := idx2_0 t
  refine Eq.trans ?_ (Spec.rows_of_emb (t.val * 400) (tlt2 t) (V c main_arg1) (((cfg2.win 0).blk t).view.emb) ?_ ?_)
  · rfl
  · intro y; show win2_0.index t (0 : Fin 2) * 400 + 1 * (y 0).val = t.val * 400 + (y 0).val; rw [e0]; omega
  · intro y; show win2_0.index t (1 : Fin 2) * 10000 + 1 * (y 1).val = (y 1).val; rw [e1]; omega

/-- The right-hand side's block is the whole matrix. -/
theorem iblk2_1_eq (c : Dev nD) (t : Fin cfg2.N) : iblk2 (F := Ideal) V c 1 t = V c main_v4_1 := by
  obtain ⟨e0, e1⟩ := idx2_1 t
  refine Eq.trans ?_ (Spec.self_of_emb (V c main_v4_1) (((cfg2.win 1).blk t).view.emb) ?_ ?_)
  · rfl
  · intro y; show win2_1.index t (0 : Fin 2) * 10000 + 1 * (y 0).val = (y 0).val; rw [e0]; omega
  · intro y; show win2_1.index t (1 : Fin 2) * 256 + 1 * (y 1).val = (y 1).val; rw [e1]; omega

/-- Block t of an array of an output's shape is its rows [400t, 400t+400). -/
theorem blk2_2_read (G : Spec.Mat 10000 128) (t : Fin cfg2.N) :
    ((cfg2.win 2).blk t).view.read (Elt Ideal) G = Spec.rows (t.val * 400) 400 (tlt2 t) G := by
  obtain ⟨e0, e1⟩ := idx2_2 t
  refine Eq.trans ?_ (Spec.rows_of_emb (t.val * 400) (tlt2 t) G (((cfg2.win 2).blk t).view.emb) ?_ ?_)
  · rfl
  · intro y; show win2_2.index t (0 : Fin 2) * 400 + 1 * (y 0).val = t.val * 400 + (y 0).val; rw [e0]; omega
  · intro y; show win2_2.index t (1 : Fin 2) * 128 + 1 * (y 1).val = (y 1).val; rw [e1]; omega
theorem blk2_3_read (G : Spec.Mat 10000 128) (t : Fin cfg2.N) :
    ((cfg2.win 3).blk t).view.read (Elt Ideal) G = Spec.rows (t.val * 400) 400 (tlt2 t) G := by
  obtain ⟨e0, e1⟩ := idx2_3 t
  refine Eq.trans ?_ (Spec.rows_of_emb (t.val * 400) (tlt2 t) G (((cfg2.win 3).blk t).view.emb) ?_ ?_)
  · rfl
  · intro y; show win2_3.index t (0 : Fin 2) * 400 + 1 * (y 0).val = t.val * 400 + (y 0).val; rw [e0]; omega
  · intro y; show win2_3.index t (1 : Fin 2) * 128 + 1 * (y 1).val = (y 1).val; rw [e1]; omega

theorem mem_blk2_2 (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v5_0).slice (win2_2.rect t)).set ↔ _
  rw [View.set_slice_whole, Rect.mem_set_unit]
  exact Iff.rfl
theorem mem_blk2_3 (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v5_1).slice (win2_3.rect t)).set ↔ _
  rw [View.set_slice_whole, Rect.mem_set_unit]
  exact Iff.rfl

/-- Every row lies in the block of the point that handles it. -/
theorem cover2_2arr (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  have ht : (i 0).val / 400 < cfg2.N := lt_of_lt_of_eq (by omega) N_2.symm
  obtain ⟨e0, e1⟩ := idx2_2 ⟨(i 0).val / 400, ht⟩
  refine ⟨⟨(i 0).val / 400, ht⟩, flush2_2 _, ?_⟩
  rw [mem_blk2_2]
  intro a
  match a with
  | ⟨0, _⟩ =>
    show win2_2.index ⟨(i 0).val / 400, ht⟩ (0 : Fin 2) * 400 ≤ (i 0).val ∧ (i 0).val < win2_2.index ⟨(i 0).val / 400, ht⟩ (0 : Fin 2) * 400 + 400
    rw [e0]; show (i 0).val / 400 * 400 ≤ (i 0).val ∧ (i 0).val < (i 0).val / 400 * 400 + 400; omega
  | ⟨1, _⟩ =>
    show win2_2.index ⟨(i 0).val / 400, ht⟩ (1 : Fin 2) * 128 ≤ (i 1).val ∧ (i 1).val < win2_2.index ⟨(i 0).val / 400, ht⟩ (1 : Fin 2) * 128 + 128
    rw [e1]; omega
theorem cover2_3arr (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  have ht : (i 0).val / 400 < cfg2.N := lt_of_lt_of_eq (by omega) N_2.symm
  obtain ⟨e0, e1⟩ := idx2_3 ⟨(i 0).val / 400, ht⟩
  refine ⟨⟨(i 0).val / 400, ht⟩, flush2_3 _, ?_⟩
  rw [mem_blk2_3]
  intro a
  match a with
  | ⟨0, _⟩ =>
    show win2_3.index ⟨(i 0).val / 400, ht⟩ (0 : Fin 2) * 400 ≤ (i 0).val ∧ (i 0).val < win2_3.index ⟨(i 0).val / 400, ht⟩ (0 : Fin 2) * 400 + 400
    rw [e0]; show (i 0).val / 400 * 400 ≤ (i 0).val ∧ (i 0).val < (i 0).val / 400 * 400 + 400; omega
  | ⟨1, _⟩ =>
    show win2_3.index ⟨(i 0).val / 400, ht⟩ (1 : Fin 2) * 128 ≤ (i 1).val ∧ (i 1).val < win2_3.index ⟨(i 0).val / 400, ht⟩ (1 : Fin 2) * 128 + 128
    rw [e1]; omega

/-- The first result array after region 2 is columns [0,128) of the product, given what a block's body computes. -/
theorem arr2_2 (hpay : ∀ (x0 : Vec Ideal S400x10000 .f32) (x1 : Vec Ideal S10000x256 .f32), out2_2 (F := Ideal) x0 x1 = Spec.cols 0 128 (by omega) (Spec.mm x0 x1)) (c : Dev nD) :
    (dat2 V c).arrAt 2 cfg2.N = Spec.cols 0 128 (by omega) (Spec.mm (V c main_arg1) (V c main_v4_1)) := by
  refine (dat2 V c).arrAt_eq_of_cover 2 _ (fun t _ => ?_) cover2_2arr
  show (cfg2.win 2).cut (grid2.coords t) ((dat2 V c).after 2 t) = _
  rw [after2_2, hpay, iblk2_0_eq, iblk2_1_eq, blk2_2_read, Spec.rows_cols, Spec.rows_mm]
  rfl
/-- The second result array after region 2 is columns [128,256) of the product. -/
theorem arr2_3 (hpay : ∀ (x0 : Vec Ideal S400x10000 .f32) (x1 : Vec Ideal S10000x256 .f32), out2_3 (F := Ideal) x0 x1 = Spec.cols 128 128 (by omega) (Spec.mm x0 x1)) (c : Dev nD) :
    (dat2 V c).arrAt 3 cfg2.N = Spec.cols 128 128 (by omega) (Spec.mm (V c main_arg1) (V c main_v4_1)) := by
  refine (dat2 V c).arrAt_eq_of_cover 3 _ (fun t _ => ?_) cover2_3arr
  show (cfg2.win 3).cut (grid2.coords t) ((dat2 V c).after 3 t) = _
  rw [after2_3, hpay, iblk2_0_eq, iblk2_1_eq, blk2_3_read, Spec.rows_cols, Spec.rows_mm]
  rfl

end Cert.KernelIdeal.Blocks

end
-- ==== Proof.KernelIdeal.Blocks3.lean ====
/-
  Region 3, from blocks to the array.  Grid point t handles rows [400t, 400t + 400): its blocks of adj and of the first-
  and second-order features are those rows of their arrays; the right-hand side, the bias rows and the classifier matrix
  are whole; and what it writes back is those rows of the result.  Every operation of the classifier head acts on rows
  independently, and the 25 blocks cover all 10000 rows, so the result array ends holding the head of
  [u1 | v2 | adj · v3] plus the joined bias.
-/
import proofs.«180432_g81776177316087_cont_9to1_m_1181_4_alg».proof.Proof.KernelIdeal.Region3
import proofs.«180432_g81776177316087_cont_9to1_m_1181_4_alg».proof.Proof.SpecRows
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

-- the core's buffer contents, as extended reals, when the region is entered
variable (V : (c : Dev nD) → (b : Ref sig .tc) → Buf (Elt Ideal) ((c : Thread nD τ).loc b))

theorem tlt3 (t : Fin cfg3.N) : t.val * 400 + 400 ≤ 10000 := by
  have h : t.val < 25 := lt_of_lt_of_eq t.isLt N_3
  omega

/-- The index maps over the grid: a row-blocked window sits at block (t, 0), a whole window at (0, 0). -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)

/-- The adjacency block at point t is rows [400t, 400t+400) of adj. -/
theorem iblk3_0_eq (c : Dev nD) (t : Fin cfg3.N) :
    iblk3 (F := Ideal) V c 0 t = Spec.rows (t.val * 400) 400 (tlt3 t) (V c main_arg1) := by
  obtain ⟨e0, e1⟩ := idx3_0 t
  refine Eq.trans ?_ (Spec.rows_of_emb (t.val * 400) (tlt3 t) (V c main_arg1) (((cfg3.win 0).blk t).view.emb) ?_ ?_)
  · rfl
  · intro y; show win3_0.index t (0 : Fin 2) * 400 + 1 * (y 0).val = t.val * 400 + (y 0).val; rw [e0]; omega
  · intro y; show win3_0.index t (1 : Fin 2) * 10000 + 1 * (y 1).val = (y 1).val; rw [e1]; omega
/-- The right-hand side's block is the whole matrix. -/
theorem iblk3_1_eq (c : Dev nD) (t : Fin cfg3.N) : iblk3 (F := Ideal) V c 1 t = V c main_v5_1 := by
  obtain ⟨e0, e1⟩ := idx3_1 t
  refine Eq.trans ?_ (Spec.self_of_emb (V c main_v5_1) (((cfg3.win 1).blk t).view.emb) ?_ ?_)
  · rfl
  · intro y; show win3_1.index t (0 : Fin 2) * 10000 + 1 * (y 0).val = (y 0).val; rw [e0]; omega
  · intro y; show win3_1.index t (1 : Fin 2) * 128 + 1 * (y 1).val = (y 1).val; rw [e1]; omega
/-- The first-order block is rows [400t, 400t+400) of the first-order features. -/
theorem iblk3_2_eq (c : Dev nD) (t : Fin cfg3.N) :
    iblk3 (F := Ideal) V c 2 t = Spec.rows (t.val * 400) 400 (tlt3 t) (V c main_v4_0) := by
  obtain ⟨e0, e1⟩ := idx3_2 t
  refine Eq.trans ?_ (Spec.rows_of_emb (t.val * 400) (tlt3 t) (V c main_v4_0) (((cfg3.win 2).blk t).view.emb) ?_ ?_)
  · rfl
  · intro y; show win3_2.index t (0 : Fin 2) * 400 + 1 * (y 0).val = t.val * 400 + (y 0).val; rw [e0]; omega
  · intro y; show win3_2.index t (1 : Fin 2) * 128 + 1 * (y 1).val = (y 1).val; rw [e1]; omega
/-- The second-order block is rows [400t, 400t+400) of the second-order features. -/
theorem iblk3_3_eq (c : Dev nD) (t : Fin cfg3.N) :
    iblk3 (F := Ideal) V c 3 t = Spec.rows (t.val * 400) 400 (tlt3 t) (V c main_v5_0) := by
  obtain ⟨e0, e1⟩ := idx3_3 t
  refine Eq.trans ?_ (Spec.rows_of_emb (t.val * 400) (tlt3 t) (V c main_v5_0) (((cfg3.win 3).blk t).view.emb) ?_ ?_)
  · rfl
  · intro y; show win3_3.index t (0 : Fin 2) * 400 + 1 * (y 0).val = t.val * 400 + (y 0).val; rw [e0]; omega
  · intro y; show win3_3.index t (1 : Fin 2) * 128 + 1 * (y 1).val = (y 1).val; rw [e1]; omega
/-- The bias row's block is the whole row. -/
theorem iblk3_4_eq (c : Dev nD) (t : Fin cfg3.N) : iblk3 (F := Ideal) V c 4 t = V c main_v2 := by
  obtain ⟨e0, e1⟩ := idx3_4 t
  refine Eq.trans ?_ (Spec.self_of_emb (V c main_v2) (((cfg3.win 4).blk t).view.emb) ?_ ?_)
  · rfl
  · intro y; show win3_4.index t (0 : Fin 2) * 1 + 1 * (y 0).val = (y 0).val; rw [e0]; omega
  · intro y; show win3_4.index t (1 : Fin 2) * 384 + 1 * (y 1).val = (y 1).val; rw [e1]; omega
/-- The classifier matrix's block is the whole matrix. -/
theorem iblk3_5_eq (c : Dev nD) (t : Fin cfg3.N) : iblk3 (F := Ideal) V c 5 t = V c main_arg8 := by
  obtain ⟨e0, e1⟩ := idx3_5 t
  refine Eq.trans ?_ (Spec.self_of_emb (V c main_arg8) (((cfg3.win 5).blk t).view.emb) ?_ ?_)
  · rfl
  · intro y; show win3_5.index t (0 : Fin 2) * 384 + 1 * (y 0).val = (y 0).val; rw [e0]; omega
  · intro y; show win3_5.index t (1 : Fin 2) * 64 + 1 * (y 1).val = (y 1).val; rw [e1]; omega
/-- The classifier bias row's block is the whole row. -/
theorem iblk3_6_eq (c : Dev nD) (t : Fin cfg3.N) : iblk3 (F := Ideal) V c 6 t = V c main_v6 := by
  obtain ⟨e0, e1⟩ := idx3_6 t
  refine Eq.trans ?_ (Spec.self_of_emb (V c main_v6) (((cfg3.win 6).blk t).view.emb) ?_ ?_)
  · rfl
  · intro y; show win3_6.index t (0 : Fin 2) * 1 + 1 * (y 0).val = (y 0).val; rw [e0]; omega
  · intro y; show win3_6.index t (1 : Fin 2) * 64 + 1 * (y 1).val = (y 1).val; rw [e1]; omega

/-- Block t of an array of the output's shape is its rows [400t, 400t+400). -/
theorem blk3_7_read (G : Spec.Mat 10000 64) (t : Fin cfg3.N) :
    ((cfg3.win 7).blk t).view.read (Elt Ideal) G = Spec.rows (t.val * 400) 400 (tlt3 t) G := by
  obtain ⟨e0, e1⟩ := idx3_7 t
  refine Eq.trans ?_ (Spec.rows_of_emb (t.val * 400) (tlt3 t) G (((cfg3.win 7).blk t).view.emb) ?_ ?_)
  · rfl
  · intro y; show win3_7.index t (0 : Fin 2) * 400 + 1 * (y 0).val = t.val * 400 + (y 0).val; rw [e0]; omega
  · intro y; show win3_7.index t (1 : Fin 2) * 64 + 1 * (y 1).val = (y 1).val; rw [e1]; omega

theorem mem_blk3_7 (t : Fin cfg3.N) (i : S10000x64.Idx) :
    i ∈ ((cfg3.win 7).blk t).view.set ↔ ∀ a : Fin 2, win3_7.index t a * S400x64.size a ≤ (i a).val ∧ (i a).val < win3_7.index t a * S400x64.size a + S400x64.size a := by
  show i ∈ ((View.whole main_v7).slice (win3_7.rect t)).set ↔ _
  rw [View.set_slice_whole, Rect.mem_set_unit]
  exact Iff.rfl

/-- Every row lies in the block of the point that handles it. -/
theorem cover3_7arr (i : S10000x64.Idx) : ∃ t : Fin cfg3.N, (cfg3.win 7).flush t = true ∧ i ∈ ((cfg3.win 7).blk t).view.set := by
  have hi0 : (i 0).val < 10000 := (i 0).isLt
  have hi1 : (i 1).val < 64 := (i 1).isLt
  have ht : (i 0).val / 400 < cfg3.N := lt_of_lt_of_eq (by omega) N_3.symm
  obtain ⟨e0, e1⟩ := idx3_7 ⟨(i 0).val / 400, ht⟩
  refine ⟨⟨(i 0).val / 400, ht⟩, flush3_7 _, ?_⟩
  rw [mem_blk3_7]
  intro a
  match a with
  | ⟨0, _⟩ =>
    show win3_7.index ⟨(i 0).val / 400, ht⟩ (0 : Fin 2) * 400 ≤ (i 0).val ∧ (i 0).val < win3_7.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_7.index ⟨(i 0).val / 400, ht⟩ (1 : Fin 2) * 64 ≤ (i 1).val ∧ (i 1).val < win3_7.index ⟨(i 0).val / 400, ht⟩ (1 : Fin 2) * 64 + 64
    rw [e1]; omega

/-- The result array after region 3, given what a block's body computes. -/
theorem arr3_7 (hpay : ∀ (x0 : Vec Ideal S400x10000 .f32) (x1 : Vec Ideal S10000x128 .f32) (x2 x3 : Vec Ideal S400x128 .f32) (x4 : Vec Ideal S1x384 .f32) (x5 : Vec Ideal S384x64 .f32) (x6 : Vec Ideal S1x64 .f32),
      out3_7 (F := Ideal) x0 x1 x2 x3 x4 x5 x6 = Spec.head (Spec.addRow (Spec.hcat3 x2 x3 (Spec.mm x0 x1)) (Spec.row x4)) x5 (Spec.row x6)) (c : Dev nD) :
    (dat3 V c).arrAt 7 cfg3.N = Spec.head (Spec.addRow (Spec.hcat3 (V c main_v4_0) (V c main_v5_0) (Spec.mm (V c main_arg1) (V c main_v5_1))) (Spec.row (V c main_v2))) (V c main_arg8) (Spec.row (V c main_v6)) := by
  refine (dat3 V c).arrAt_eq_of_cover 7 _ (fun t _ => ?_) cover3_7arr
  show (cfg3.win 7).cut (grid3.coords t) ((dat3 V c).after 7 t) = _
  rw [after3_7, hpay, iblk3_0_eq, iblk3_1_eq, iblk3_2_eq, iblk3_3_eq, iblk3_4_eq, iblk3_5_eq, iblk3_6_eq, blk3_7_read,
    Spec.rows_head, Spec.rows_addRow, Spec.rows_hcat3, Spec.rows_mm]
  rfl

end Cert.KernelIdeal.Blocks

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelIdeal.Payload.lean ====
/-
  What each kernel body's output block holds, read as mathematics over the extended reals: the row-blocked product
  is the matrix product of its two input blocks; the two split products are column ranges of the matrix product;
  the final body is the classifier head (rectify, multiply, add the bias, logistic) of the three 128-column pieces
  side by side with the joined bias added to every row.
-/
import proofs.«180432_g81776177316087_cont_9to1_m_1181_4_alg».proof.Proof.KernelIdeal.Region0
import proofs.«180432_g81776177316087_cont_9to1_m_1181_4_alg».proof.Proof.KernelIdeal.Region1
import proofs.«180432_g81776177316087_cont_9to1_m_1181_4_alg».proof.Proof.KernelIdeal.Region2
import proofs.«180432_g81776177316087_cont_9to1_m_1181_4_alg».proof.Proof.KernelIdeal.Region3
import proofs.«180432_g81776177316087_cont_9to1_m_1181_4_alg».proof.Proof.Spec
import proofs.«180432_g81776177316087_cont_9to1_m_1181_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Cert.KernelIdeal.Frame Idealize.ShloMosaic Idealize.ShloMosaic.ValueIdx

/-- The zero offset of a rank-2 block, as the constant-zero function. -/
theorem hz : (![0, 0] : Fin 2 → Nat) = fun _ => 0 := funext fun a => by fin_cases a <;> rfl

/-- The row-blocked product's output block is the matrix product of its two input blocks. -/
theorem out0_2_eq (x0 : Vec Ideal S400x128 .f32) (x1 : Vec Ideal S128x384 .f32) :
    out0_2 (F := Ideal) x0 x1 = Cert.Spec.mm x0 x1 := by
  unfold out0_2
  rw [View.canon_unit_zero hz]
  simp only [View.ld_unit_zero (S := S400x128) hz, View.ld_unit_zero (S := S128x384) hz]
  funext j
  obtain ⟨p, q, rfl⟩ : ∃ (p : Fin 400) (q : Fin 384), j = ix2 p q := ⟨j 0, j 1, eq_ix2 j⟩
  unfold k0_pay1
  simp only [shapeCast_self]
  exact Cert.Lib.PlainDot.matmul_zero_apply dot_S400x128_S128x384_S400x384_1_0_0_1_n_n rfl rfl rfl rfl rfl rfl none x0 x1 p q

/-- The first split kernel's product is the matrix product of its two input blocks. -/
theorem k1_pay1_eq (x0 : Vec Ideal S400x10000 .f32) (x1 : Vec Ideal S10000x384 .f32) :
    k1_pay1 (F := Ideal) x0 x1 = Cert.Spec.mm x0 x1 := by
  funext j
  obtain ⟨p, q, rfl⟩ : ∃ (p : Fin 400) (q : Fin 384), j = ix2 p q := ⟨j 0, j 1, eq_ix2 j⟩
  unfold k1_pay1
  simp only [shapeCast_self]
  exact Cert.Lib.PlainDot.matmul_zero_apply dot_S400x10000_S10000x384_S400x384_1_0_0_1_n_n rfl rfl rfl rfl rfl rfl none x0 x1 p q

/-- The second split kernel's product is the matrix product of its two input blocks. -/
theorem k2_pay1_eq (x0 : Vec Ideal S400x10000 .f32) (x1 : Vec Ideal S10000x256 .f32) :
    k2_pay1 (F := Ideal) x0 x1 = Cert.Spec.mm x0 x1 := by
  funext j
  obtain ⟨p, q, rfl⟩ : ∃ (p : Fin 400) (q : Fin 256), j = ix2 p q := ⟨j 0, j 1, eq_ix2 j⟩
  unfold k2_pay1
  simp only [shapeCast_self]
  exact Cert.Lib.PlainDot.matmul_zero_apply dot_S400x10000_S10000x256_S400x256_1_0_0_1_n_n rfl rfl rfl rfl rfl rfl none x0 x1 p q

/-- The first split kernel's first output block: columns 0..127 of the product. -/
theorem out1_2_eq (x0 : Vec Ideal S400x10000 .f32) (x1 : Vec Ideal S10000x384 .f32) :
    out1_2 (F := Ideal) x0 x1 = Cert.Spec.cols 0 128 (by omega) (Cert.Spec.mm x0 x1) := by
  unfold out1_2
  rw [View.canon_unit_zero hz]
  simp only [View.ld_unit_zero (S := S400x10000) hz, View.ld_unit_zero (S := S10000x384) hz]
  funext j
  obtain ⟨p, q, rfl⟩ : ∃ (p : Fin 400) (q : Fin 128), j = ix2 p q := ⟨j 0, j 1, eq_ix2 j⟩
  unfold k1_pay2
  refine Eq.trans ?_ (Cert.Spec.cols_apply 0 128 (by omega) (Cert.Spec.mm x0 x1) p q).symm
  refine (slice2_axis1_apply 0 (k1_pay1 (F := Ideal) x0 x1) _ p q ⟨0 + q.val, by have := q.isLt; omega⟩ rfl).trans ?_
  rw [k1_pay1_eq]

/-- The first split kernel's second output block: columns 128..383 of the product. -/
theorem out1_3_eq (x0 : Vec Ideal S400x10000 .f32) (x1 : Vec Ideal S10000x384 .f32) :
    out1_3 (F := Ideal) x0 x1 = Cert.Spec.cols 128 256 (by omega) (Cert.Spec.mm x0 x1) := by
  unfold out1_3
  rw [View.canon_unit_zero hz]
  simp only [View.ld_unit_zero (S := S400x10000) hz, View.ld_unit_zero (S := S10000x384) hz]
  funext j
  obtain ⟨p, q, rfl⟩ : ∃ (p : Fin 400) (q : Fin 256), j = ix2 p q := ⟨j 0, j 1, eq_ix2 j⟩
  unfold k1_pay3
  refine Eq.trans ?_ (Cert.Spec.cols_apply 128 256 (by omega) (Cert.Spec.mm x0 x1) p q).symm
  refine (slice2_axis1_apply 128 (k1_pay1 (F := Ideal) x0 x1) _ p q ⟨128 + q.val, by have := q.isLt; omega⟩ rfl).trans ?_
  rw [k1_pay1_eq]

/-- The second split kernel's first output block: columns 0..127 of the product. -/
theorem out2_2_eq (x0 : Vec Ideal S400x10000 .f32) (x1 : Vec Ideal S10000x256 .f32) :
    out2_2 (F := Ideal) x0 x1 = Cert.Spec.cols 0 128 (by omega) (Cert.Spec.mm x0 x1) := by
  unfold out2_2
  rw [View.canon_unit_zero hz]
  simp only [View.ld_unit_zero (S := S400x10000) hz, View.ld_unit_zero (S := S10000x256) hz]
  funext j
  obtain ⟨p, q, rfl⟩ : ∃ (p : Fin 400) (q : Fin 128), j = ix2 p q := ⟨j 0, j 1, eq_ix2 j⟩
  unfold k2_pay2
  refine Eq.trans ?_ (Cert.Spec.cols_apply 0 128 (by omega) (Cert.Spec.mm x0 x1) p q).symm
  refine (slice2_axis1_apply 0 (k2_pay1 (F := Ideal) x0 x1) _ p q ⟨0 + q.val, by have := q.isLt; omega⟩ rfl).trans ?_
  rw [k2_pay1_eq]

/-- The second split kernel's second output block: columns 128..255 of the product. -/
theorem out2_3_eq (x0 : Vec Ideal S400x10000 .f32) (x1 : Vec Ideal S10000x256 .f32) :
    out2_3 (F := Ideal) x0 x1 = Cert.Spec.cols 128 128 (by omega) (Cert.Spec.mm x0 x1) := by
  unfold out2_3
  rw [View.canon_unit_zero hz]
  simp only [View.ld_unit_zero (S := S400x10000) hz, View.ld_unit_zero (S := S10000x256) hz]
  funext j
  obtain ⟨p, q, rfl⟩ : ∃ (p : Fin 400) (q : Fin 128), j = ix2 p q := ⟨j 0, j 1, eq_ix2 j⟩
  unfold k2_pay3
  refine Eq.trans ?_ (Cert.Spec.cols_apply 128 128 (by omega) (Cert.Spec.mm x0 x1) p q).symm
  refine (slice2_axis1_apply 128 (k2_pay1 (F := Ideal) x0 x1) _ p q ⟨128 + q.val, by have := q.isLt; omega⟩ rfl).trans ?_
  rw [k2_pay1_eq]

/-- Three 400×128 pieces joined along the columns, read at (p, k): the piece whose column range holds k. -/
theorem concat3_apply (A B C : Vec Ideal S400x128 .f32)
    (h : Shape.Concatenates [S400x128, S400x128, S400x128] S400x384 1) (p : Fin 400) (k : Fin 384) :
    concatenate S400x384 1 [⟨S400x128, A⟩, ⟨S400x128, B⟩, ⟨S400x128, C⟩] h (ix2 p k)
      = Cert.Spec.hcat3 A B C (ix2 p k) := by
  by_cases h1 : k.val < 128
  · rw [Cert.Spec.hcat3_left A B C p k h1]
    exact concatenate_apply_piece 1 [⟨S400x128, A⟩, ⟨S400x128, B⟩, ⟨S400x128, C⟩] h (ix2 p k) 0 (by show 0 < 3; omega) S400x128 A rfl rfl 0 rfl (ix2 p ⟨k.val, h1⟩)
      (fun b => match b with | ⟨0, _⟩ => fun _ => rfl | ⟨1, _⟩ => fun hne => absurd rfl hne)
      (by show 0 + k.val = k.val; omega)
  · by_cases h2 : k.val < 256
    · rw [Cert.Spec.hcat3_mid A B C p k h1 h2]
      exact concatenate_apply_piece 1 [⟨S400x128, A⟩, ⟨S400x128, B⟩, ⟨S400x128, C⟩] h (ix2 p k) 1 (by show 1 < 3; omega) S400x128 B rfl rfl 128 rfl
        (ix2 p ⟨k.val - 128, by omega⟩)
        (fun b => match b with | ⟨0, _⟩ => fun _ => rfl | ⟨1, _⟩ => fun hne => absurd rfl hne)
        (by show 128 + (k.val - 128) = k.val; omega)
    · rw [Cert.Spec.hcat3_right A B C p k h1 h2]
      exact concatenate_apply_piece 1 [⟨S400x128, A⟩, ⟨S400x128, B⟩, ⟨S400x128, C⟩] h (ix2 p k) 2 (by show 2 < 3; omega) S400x128 C rfl rfl 256 rfl
        (ix2 p ⟨k.val - 256, by have := k.isLt; omega⟩)
        (fun b => match b with | ⟨0, _⟩ => fun _ => rfl | ⟨1, _⟩ => fun hne => absurd rfl hne)
        (by show 256 + (k.val - 256) = k.val; omega)

/-- The final kernel's product is the matrix product of its two input blocks. -/
theorem k3_mm_eq (x0 : Vec Ideal S400x10000 .f32) (x1 : Vec Ideal S10000x128 .f32) :
    matmul (F := Ideal) (φ₁ := .f32) (φ₂ := .f32) dot_S400x10000_S10000x128_S400x128_1_0_0_1_n_n none x0 x1 (constant (F := Ideal) S400x128 .f32 0x00000000#32)
      = Cert.Spec.mm x0 x1 := by
  funext j
  obtain ⟨p, q, rfl⟩ : ∃ (p : Fin 400) (q : Fin 128), j = ix2 p q := ⟨j 0, j 1, eq_ix2 j⟩
  exact Cert.Lib.PlainDot.matmul_zero_apply dot_S400x10000_S10000x128_S400x128_1_0_0_1_n_n rfl rfl rfl rfl rfl rfl none x0 x1 p q

/-- The rectified matrix of the final kernel at (p, k): the three pieces side by side, the joined bias added, the
    maximum with zero. -/
theorem rect_apply (x0 : Vec Ideal S400x10000 .f32) (x1 : Vec Ideal S10000x128 .f32) (x2 x3 : Vec Ideal S400x128 .f32)
    (x4 : Vec Ideal S1x384 .f32) (hc : Shape.Concatenates [S400x128, S400x128, S400x128] S400x384 1)
    (hb : S1x384.Broadcasts S400x384) (p : Fin 400) (k : Fin 384) :
    maximumf (F := Ideal) (addf (concatenate S400x384 1 [⟨S400x128, x2⟩, ⟨S400x128, x3⟩,
        ⟨S400x128, matmul (F := Ideal) (φ₁ := .f32) (φ₂ := .f32) dot_S400x10000_S10000x128_S400x128_1_0_0_1_n_n none x0 x1 (constant (F := Ideal) S400x128 .f32 0x00000000#32)⟩] hc)
        (broadcastTo S400x384 x4 hb)) (broadcast S400x384 (Scalar.ofBits (F := Ideal) .f32 0x00000000#32)) (ix2 p k)
      = max (Cert.Spec.addRow (Cert.Spec.hcat3 x2 x3 (Cert.Spec.mm x0 x1)) (Cert.Spec.row x4) (ix2 p k)) Cert.Spec.zeroF := by
  rw [maximumf_apply, addf_apply, concat3_apply, broadcastTo_1b_ab_apply, k3_mm_eq, Cert.Spec.addRow_apply]
  rfl

/-- The final kernel's output block: the classifier head of the three pieces side by side with the joined bias. -/
theorem out3_7_eq (x0 : Vec Ideal S400x10000 .f32) (x1 : Vec Ideal S10000x128 .f32) (x2 x3 : Vec Ideal S400x128 .f32)
    (x4 : Vec Ideal S1x384 .f32) (x5 : Vec Ideal S384x64 .f32) (x6 : Vec Ideal S1x64 .f32) :
    out3_7 (F := Ideal) x0 x1 x2 x3 x4 x5 x6
      = Cert.Spec.head (Cert.Spec.addRow (Cert.Spec.hcat3 x2 x3 (Cert.Spec.mm x0 x1)) (Cert.Spec.row x4)) x5 (Cert.Spec.row x6) := by
  unfold out3_7
  rw [View.canon_unit_zero hz]
  simp only [View.ld_unit_zero (S := S400x10000) hz, View.ld_unit_zero (S := S10000x128) hz,
    View.ld_unit_zero (S := S400x128) hz, View.ld_unit_zero (S := S1x384) hz, View.ld_unit_zero (S := S384x64) hz,
    View.ld_unit_zero (S := S1x64) hz]
  funext j
  obtain ⟨p, q, rfl⟩ : ∃ (p : Fin 400) (q : Fin 64), j = ix2 p q := ⟨j 0, j 1, eq_ix2 j⟩
  unfold k3_pay1
  simp only [shapeCast_self]
  rw [shapeCast_self x2, shapeCast_self x3, shapeCast_self x1]
  refine congrArg Ideal.logistic ?_
  refine congrArg₂ (· + ·) ?_ ?_
  · refine (Cert.Lib.PlainDot.matmul_zero_apply dot_S400x384_S384x64_S400x64_1_0_0_1_n_n rfl rfl rfl rfl rfl rfl none _ x5 p q).trans ?_
    refine Finset.sum_congr rfl fun k _ => ?_
    exact congrArg (· * x5 (ix2 k q)) (rect_apply x0 x1 x2 x3 x4 _ _ p k)
  · exact broadcastTo_1b_ab_apply x6 _ p q

end Cert.KernelIdeal.Payload

end
-- ==== Proof.KernelIdeal.Hosts.lean ====
/-
  What the kernel program's host operations leave, as extended reals: the three weight matrices concatenated along the
  column axis are the matrices side by side; the three bias vectors concatenated and given a leading unit axis are,
  read as a row, the joined bias; the classifier bias given a leading unit axis is, read as a row, itself.
-/
import proofs.«180432_g81776177316087_cont_9to1_m_1181_4_alg».proof.Proof.KernelIdeal.Run
import proofs.«180432_g81776177316087_cont_9to1_m_1181_4_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hosts

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Frame

variable (m : (ℓ : Loc nD τ sig) → Buf (Elt Ideal) ℓ) (ρ : Dev nD → PrngReg)

/-- Three 128-column matrices concatenated along the column axis are the three matrices side by side. -/
theorem concat3_mat (A B C : (⟨S128x128, .f32⟩ : BufTy).Contents (Elt Ideal)) :
    concatenate S128x384 1 [⟨S128x128, A⟩, ⟨S128x128, B⟩, ⟨S128x128, C⟩]
        concatenates_S128x128_S128x128_S128x128_S128x384_d1
      = Spec.hcat3 A B C := by
  funext j
  obtain ⟨p, q, rfl⟩ : ∃ (p : Fin 128) (q : Fin 384), j = ix2 p q := ⟨j 0, j 1, eq_ix2 j⟩
  by_cases h1 : q.val < 128
  · rw [Spec.hcat3_left A B C p q h1]
    refine concatenate_apply_piece 1 _ _ (ix2 p q) 0 (by show (0 : Nat) < 3; omega) S128x128 A rfl rfl 0 rfl (ix2 p ⟨q.val, h1⟩) ?_ ?_
    · intro b hb
      match b with
      | ⟨0, _⟩ => rfl
      | ⟨1, _⟩ => exact absurd rfl hb
    · show 0 + q.val = q.val
      omega
  · by_cases h2 : q.val < 256
    · rw [Spec.hcat3_mid A B C p q h1 h2]
      refine concatenate_apply_piece 1 _ _ (ix2 p q) 1 (by show (1 : Nat) < 3; omega) S128x128 B rfl rfl 128 rfl
        (ix2 p ⟨q.val - 128, by omega⟩) ?_ ?_
      · intro b hb
        match b with
        | ⟨0, _⟩ => rfl
        | ⟨1, _⟩ => exact absurd rfl hb
      · show 128 + (q.val - 128) = q.val
        omega
    · rw [Spec.hcat3_right A B C p q h1 h2]
      refine concatenate_apply_piece 1 _ _ (ix2 p q) 2 (by show (2 : Nat) < 3; omega) S128x128 C rfl rfl 256 rfl
        (ix2 p ⟨q.val - 256, by have := q.isLt; omega⟩) ?_ ?_
      · intro b hb
        match b with
        | ⟨0, _⟩ => rfl
        | ⟨1, _⟩ => exact absurd rfl hb
      · show 256 + (q.val - 256) = q.val
        omega

/-- Three vectors of 128 entries concatenated are the three vectors end to end. -/
theorem concat3_vec (a b c : (⟨S128, .f32⟩ : BufTy).Contents (Elt Ideal)) :
    concatenate S384 0 [⟨S128, a⟩, ⟨S128, b⟩, ⟨S128, c⟩] concatenates_S128_S128_S128_S384_d0 = Spec.vcat3 a b c := by
  funext j
  obtain ⟨q, rfl⟩ : ∃ q : Fin 384, j = ix1 q := ⟨j 0, eq_ix1 j⟩
  by_cases h1 : q.val < 128
  · rw [Spec.vcat3_left a b c q h1]
    refine concatenate_apply_piece 0 _ _ (ix1 q) 0 (by show (0 : Nat) < 3; omega) S128 a rfl rfl 0 rfl (ix1 ⟨q.val, h1⟩) ?_ ?_
    · intro d hd
      match d with
      | ⟨0, _⟩ => exact absurd rfl hd
    · show 0 + q.val = q.val
      omega
  · by_cases h2 : q.val < 256
    · rw [Spec.vcat3_mid a b c q h1 h2]
      refine concatenate_apply_piece 0 _ _ (ix1 q) 1 (by show (1 : Nat) < 3; omega) S128 b rfl rfl 128 rfl (ix1 ⟨q.val - 128, by omega⟩) ?_ ?_
      · intro d hd
        match d with
        | ⟨0, _⟩ => exact absurd rfl hd
      · show 128 + (q.val - 128) = q.val
        omega
    · rw [Spec.vcat3_right a b c q h1 h2]
      refine concatenate_apply_piece 0 _ _ (ix1 q) 2 (by show (2 : Nat) < 3; omega) S128 c rfl rfl 256 rfl (ix1 ⟨q.val - 256, by have := q.isLt; omega⟩) ?_ ?_
      · intro d hd
        match d with
        | ⟨0, _⟩ => exact absurd rfl hd
      · show 256 + (q.val - 256) = q.val
        omega

/-- A vector given a leading unit axis, read as a row, is the vector. -/
theorem row_bcast384 (v : (⟨S384, .f32⟩ : BufTy).Contents (Elt Ideal)) :
    Spec.row (broadcastInDim S1x384 ![1] bcast_S384_S1x384_1 v) = v := by
  funext j
  obtain ⟨q, rfl⟩ : ∃ q : Fin 384, j = ix1 q := ⟨j 0, eq_ix1 j⟩
  exact broadcastInDim_apply _ bcast_S384_S1x384_1 v (ix2 0 q) (ix1 q) (fun a => match a with
    | ⟨0, _⟩ => by show q.val = if (384 : Nat) = 1 then 0 else q.val; rw [if_neg (by decide)])
theorem row_bcast64 (v : (⟨S64, .f32⟩ : BufTy).Contents (Elt Ideal)) :
    Spec.row (broadcastInDim S1x64 ![1] bcast_S64_S1x64_1 v) = v := by
  funext j
  obtain ⟨q, rfl⟩ : ∃ q : Fin 64, j = ix1 q := ⟨j 0, eq_ix1 j⟩
  exact broadcastInDim_apply _ bcast_S64_S1x64_1 v (ix2 0 q) (ix1 q) (fun a => match a with
    | ⟨0, _⟩ => by show q.val = if (64 : Nat) = 1 then 0 else q.val; rw [if_neg (by decide)])

/-- The joined weight matrix after the first host stretch. -/
theorem W1_v0 (c : Dev nD) : W1 (F := Ideal) m ρ c (Proc.devRef .tc main_v0)
    = Spec.hcat3 (m ((c : Thread nD τ).loc main_arg2)) (m ((c : Thread nD τ).loc main_arg4)) (m ((c : Thread nD τ).loc main_arg6)) := by
  refine Eq.trans ?_ (concat3_mat _ _ _)
  show StableHlo.after hostOps0 (W0 m ρ c) (Proc.devRef .tc main_v0) = _
  after_results
  rfl

/-- The joined bias row after the first host stretch. -/
theorem W1_v2 (c : Dev nD) : Spec.row (W1 (F := Ideal) m ρ c (Proc.devRef .tc main_v2))
    = Spec.vcat3 (m ((c : Thread nD τ).loc main_arg3)) (m ((c : Thread nD τ).loc main_arg5)) (m ((c : Thread nD τ).loc main_arg7)) := by
  refine Eq.trans ?_ ((row_bcast384 _).trans (concat3_vec _ _ _))
  refine congrArg Spec.row ?_
  show StableHlo.after hostOps0 (W0 m ρ c) (Proc.devRef .tc main_v2) = _
  after_results
  rfl

/-- The classifier bias row after the second host stretch. -/
theorem W5_v6 (c : Dev nD) : Spec.row (W5 (F := Ideal) m ρ c (Proc.devRef .tc main_v6)) = W4 m ρ c (Proc.devRef .tc main_arg9) := by
  refine Eq.trans ?_ (row_bcast64 _)
  refine congrArg Spec.row ?_
  show StableHlo.after hostOps3 (W4 m ρ c) (Proc.devRef .tc main_v6) = _
  after_results

end Cert.KernelIdeal.Hosts

end
-- ==== Proof.KernelIdeal.Value.lean ====
/-
  The kernel program's result as one function of its arguments, at the extended reals.  Reading the last boundary's
  contents back through the fold: the result array is the classifier head of [u1 | v2 | adj · v3] plus the joined bias,
  where u1 and the 256-column u23 are the column ranges of adj · t, t = x · [W1|W2|W3], and v2, v3 are the column ranges
  of adj · u23 — the arrangement the specification calls viaJoined.
-/
import proofs.«180432_g81776177316087_cont_9to1_m_1181_4_alg».proof.Proof.KernelIdeal.Run
import proofs.«180432_g81776177316087_cont_9to1_m_1181_4_alg».proof.Proof.KernelIdeal.Blocks0
import proofs.«180432_g81776177316087_cont_9to1_m_1181_4_alg».proof.Proof.KernelIdeal.Blocks1
import proofs.«180432_g81776177316087_cont_9to1_m_1181_4_alg».proof.Proof.KernelIdeal.Blocks2
import proofs.«180432_g81776177316087_cont_9to1_m_1181_4_alg».proof.Proof.KernelIdeal.Blocks3
import proofs.«180432_g81776177316087_cont_9to1_m_1181_4_alg».proof.Proof.KernelIdeal.Payload
import proofs.«180432_g81776177316087_cont_9to1_m_1181_4_alg».proof.Proof.KernelIdeal.Hosts

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Frame Cert.KernelIdeal.Blocks Cert.KernelIdeal.Payload Cert.KernelIdeal.Hosts

variable (m : (ℓ : Loc nD τ sig) → Buf (Elt Ideal) ℓ) (ρ : Dev nD → PrngReg)

/-! ## The arguments as each region finds them -/

theorem U1_arg0 (c : Dev nD) : U1 (F := Ideal) m ρ c main_arg0 = (m ((c : Thread nD τ).loc main_arg0)) :=
  (W1_keep m ρ c main_arg0 (by decide)).trans rfl
theorem U1_v0 (c : Dev nD) : U1 (F := Ideal) m ρ c main_v0 = Spec.hcat3 (m ((c : Thread nD τ).loc main_arg2)) (m ((c : Thread nD τ).loc main_arg4)) (m ((c : Thread nD τ).loc main_arg6)) :=
  W1_v0 m ρ c
theorem U2_arg1 (c : Dev nD) : U2 (F := Ideal) m ρ c main_arg1 = (m ((c : Thread nD τ).loc main_arg1)) :=
  (W2_of_ne m ρ c main_arg1 (by decide)).trans ((W1_keep m ρ c main_arg1 (by decide)).trans rfl)
theorem U3_arg1 (c : Dev nD) : U3 (F := Ideal) m ρ c main_arg1 = (m ((c : Thread nD τ).loc main_arg1)) :=
  (W3_in0 m ρ c).trans (U2_arg1 m ρ c)
theorem U5_arg1 (c : Dev nD) : U5 (F := Ideal) m ρ c main_arg1 = (m ((c : Thread nD τ).loc main_arg1)) :=
  (W5_keep m ρ c main_arg1 (by decide)).trans ((W4_in0 m ρ c).trans (U3_arg1 m ρ c))
theorem U5_arg8 (c : Dev nD) : U5 (F := Ideal) m ρ c main_arg8 = (m ((c : Thread nD τ).loc main_arg8)) :=
  (W5_keep m ρ c main_arg8 (by decide)).trans <| (W4_of_ne m ρ c main_arg8 (by decide)).trans <| (W3_of_ne m ρ c main_arg8 (by decide)).trans <|
    (W2_of_ne m ρ c main_arg8 (by decide)).trans <| (W1_keep m ρ c main_arg8 (by decide)).trans rfl
theorem W4_arg9 (c : Dev nD) : W4 (F := Ideal) m ρ c (Proc.devRef .tc main_arg9) = (m ((c : Thread nD τ).loc main_arg9)) :=
  (W4_of_ne m ρ c main_arg9 (by decide)).trans <| (W3_of_ne m ρ c main_arg9 (by decide)).trans <|
    (W2_of_ne m ρ c main_arg9 (by decide)).trans <| (W1_keep m ρ c main_arg9 (by decide)).trans rfl

/-! ## The intermediate arrays -/

/-- t = x · [W1|W2|W3]. -/
abbrev tMat (c : Dev nD) : Spec.Mat 10000 384 := Spec.mm (m ((c : Thread nD τ).loc main_arg0)) (Spec.hcat3 (m ((c : Thread nD τ).loc main_arg2)) (m ((c : Thread nD τ).loc main_arg4)) (m ((c : Thread nD τ).loc main_arg6)))
/-- u23 = columns [128,384) of adj · t. -/
abbrev u23Mat (c : Dev nD) : Spec.Mat 10000 256 := Spec.cols 128 256 (by omega) (Spec.mm (m ((c : Thread nD τ).loc main_arg1)) (tMat m c))

theorem U2_v3 (c : Dev nD) : U2 (F := Ideal) m ρ c main_v3 = tMat m c :=
  (W2_arr m ρ c 2).trans ((arr0_2 (U1 m ρ) out0_2_eq c).trans (by rw [U1_arg0, U1_v0]))

theorem U3_v4_0 (c : Dev nD) : U3 (F := Ideal) m ρ c main_v4_0 = Spec.cols 0 128 (by omega) (Spec.mm (m ((c : Thread nD τ).loc main_arg1)) (tMat m c)) :=
  (W3_arr m ρ c 2).trans ((arr1_2 (U2 m ρ) out1_2_eq c).trans (by rw [U2_arg1, U2_v3]))
theorem U3_v4_1 (c : Dev nD) : U3 (F := Ideal) m ρ c main_v4_1 = u23Mat m c :=
  (W3_arr m ρ c 3).trans ((arr1_3 (U2 m ρ) out1_3_eq c).trans (by rw [U2_arg1, U2_v3]))

theorem U4_v5_0 (c : Dev nD) : U4 (F := Ideal) m ρ c main_v5_0 = Spec.cols 0 128 (by omega) (Spec.mm (m ((c : Thread nD τ).loc main_arg1)) (u23Mat m c)) :=
  (W4_arr m ρ c 2).trans ((arr2_2 (U3 m ρ) out2_2_eq c).trans (by rw [U3_arg1, U3_v4_1]))
theorem U4_v5_1 (c : Dev nD) : U4 (F := Ideal) m ρ c main_v5_1 = Spec.cols 128 128 (by omega) (Spec.mm (m ((c : Thread nD τ).loc main_arg1)) (u23Mat m c)) :=
  (W4_arr m ρ c 3).trans ((arr2_3 (U3 m ρ) out2_3_eq c).trans (by rw [U3_arg1, U3_v4_1]))

/-! ## The last region's operands as it finds them -/

theorem U5_v4_0 (c : Dev nD) : U5 (F := Ideal) m ρ c main_v4_0 = Spec.cols 0 128 (by omega) (Spec.mm (m ((c : Thread nD τ).loc main_arg1)) (tMat m c)) :=
  (W5_keep m ρ c main_v4_0 (by decide)).trans ((W4_of_ne m ρ c main_v4_0 (by decide)).trans (U3_v4_0 m ρ c))
theorem U5_v5_0 (c : Dev nD) : U5 (F := Ideal) m ρ c main_v5_0 = Spec.cols 0 128 (by omega) (Spec.mm (m ((c : Thread nD τ).loc main_arg1)) (u23Mat m c)) :=
  (W5_keep m ρ c main_v5_0 (by decide)).trans (U4_v5_0 m ρ c)
theorem U5_v5_1 (c : Dev nD) : U5 (F := Ideal) m ρ c main_v5_1 = Spec.cols 128 128 (by omega) (Spec.mm (m ((c : Thread nD τ).loc main_arg1)) (u23Mat m c)) :=
  (W5_keep m ρ c main_v5_1 (by decide)).trans (U4_v5_1 m ρ c)
theorem U5_v2_row (c : Dev nD) : Spec.row (U5 (F := Ideal) m ρ c main_v2)
    = Spec.vcat3 (m ((c : Thread nD τ).loc main_arg3)) (m ((c : Thread nD τ).loc main_arg5)) (m ((c : Thread nD τ).loc main_arg7)) := by
  have e : U5 (F := Ideal) m ρ c main_v2 = W1 m ρ c (Proc.devRef .tc main_v2) :=
    (W5_keep m ρ c main_v2 (by decide)).trans <| (W4_of_ne m ρ c main_v2 (by decide)).trans <|
      (W3_of_ne m ρ c main_v2 (by decide)).trans <| (W2_of_ne m ρ c main_v2 (by decide))
  rw [e]
  exact W1_v2 m ρ c
theorem U5_v6_row (c : Dev nD) : Spec.row (U5 (F := Ideal) m ρ c main_v6) = (m ((c : Thread nD τ).loc main_arg9)) :=
  (W5_v6 m ρ c).trans (W4_arg9 m ρ c)

/-! ## The result -/

/-- The result array at the last boundary is the specification's joined arrangement of the arguments. -/
theorem kernel_value (c : Dev nD) : W6 (F := Ideal) m ρ c (Proc.devRef .tc main_v7)
    = Spec.viaJoined (m ((c : Thread nD τ).loc main_arg0)) (m ((c : Thread nD τ).loc main_arg1)) (m ((c : Thread nD τ).loc main_arg2)) (m ((c : Thread nD τ).loc main_arg4)) (m ((c : Thread nD τ).loc main_arg6))
        (m ((c : Thread nD τ).loc main_arg3)) (m ((c : Thread nD τ).loc main_arg5)) (m ((c : Thread nD τ).loc main_arg7)) (m ((c : Thread nD τ).loc main_arg8)) (m ((c : Thread nD τ).loc main_arg9)) := by
  refine (W6_arr m ρ c 7).trans ((arr3_7 (U5 m ρ) out3_7_eq c).trans ?_)
  rw [U5_v4_0, U5_v5_0, U5_v5_1, U5_arg1, U5_v2_row, U5_arg8, U5_v6_row]
  rfl

end Cert.KernelIdeal.Result

end
-- ==== Proof.RefValue.lean ====
import proofs.«180432_g81776177316087_cont_9to1_m_1181_4_alg».proof.Proof.Gen.ReferenceIdeal.Run
import proofs.«180432_g81776177316087_cont_9to1_m_1181_4_alg».proof.Proof.Gen.ReferenceIdeal.Read
import proofs.«180432_g81776177316087_cont_9to1_m_1181_4_alg».proof.Proof.Spec
import proofs.«180432_g81776177316087_cont_9to1_m_1181_4_alg».proof.Proof.LibPlainDot
import Idealize.ShloMosaic.Lib.Pipeline.Value
import Idealize.ShloMosaic.Lib.ValueIdx
import Idealize.ShloMosaic.PureOps.Ideal.Laws

/-!
  The reference program, stage by stage, is the per-order arrangement of the three-order graph convolution:
  each host matrix product is the matrix product, each pair of broadcasts adds a row vector to every row, the
  concatenation lays three 128-column blocks side by side, the maximum with the zero splat is the rectifier, and
  1 / (1 + e^(-z)) is the logistic function.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- A host matrix product with plain dimensions (contract the left operand's axis 1 with the right operand's axis 0,
    no batch axes) is the matrix product. -/
theorem hostDot_eq_mm {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ .f32) (r : FVec Ideal ⟨2, ![K, N]⟩ .f32) :
    Host.dotGeneral d none l r = Cert.Spec.mm l r := by
  funext j
  obtain ⟨p, q, rfl⟩ : ∃ (p : Fin M) (q : Fin N), j = ix2 p q := ⟨j 0, j 1, eq_ix2 j⟩
  simp only [Host.dotGeneral]
  rw [Cert.Lib.PlainDot.dotGeneral_apply d hlc hrc hln hrn hlb hrb, Cert.Spec.mm_apply]

/-- x · W. -/
theorem xw_eq (x0 : (⟨S10000x128, .f32⟩ : BufTy).Contents (Elt Ideal)) (w : (⟨S128x128, .f32⟩ : BufTy).Contents (Elt Ideal)) :
    val_main_v0 (F := Ideal) x0 w = Cert.Spec.mm x0 w :=
  hostDot_eq_mm dot_S10000x128_S128x128_S10000x128_1_0_0_1_n_n rfl rfl rfl rfl rfl rfl x0 w

/-- adj · H. -/
theorem adjH_eq (x1 : (⟨S10000x10000, .f32⟩ : BufTy).Contents (Elt Ideal)) (H : (⟨S10000x128, .f32⟩ : BufTy).Contents (Elt Ideal)) :
    Host.dotGeneral (F := Ideal) (φ₁ := .f32) (φ₂ := .f32) dot_S10000x10000_S10000x128_S10000x128_1_0_0_1_n_n none x1 H = Cert.Spec.mm x1 H :=
  hostDot_eq_mm dot_S10000x10000_S10000x128_S10000x128_1_0_0_1_n_n rfl rfl rfl rfl rfl rfl x1 H

/-- The two broadcasts of a 128-vector, read at (p, q), are its entry q. -/
theorem bias128_apply (b : (⟨S128, .f32⟩ : BufTy).Contents (Elt Ideal)) (p : Fin 10000) (q : Fin 128) :
    val_main_v3 (F := Ideal) b (ix2 p q) = b (ix1 q) := by
  rw [val_main_v3_apply, val_main_v2_apply]
  exact congrArg b (funext fun a => match a with | ⟨0, _⟩ => rfl)

/-- The two broadcasts of a 64-vector, read at (p, q), are its entry q. -/
theorem bias64_apply (b : (⟨S64, .f32⟩ : BufTy).Contents (Elt Ideal)) (p : Fin 10000) (q : Fin 64) :
    val_main_v22 (F := Ideal) b (ix2 p q) = b (ix1 q) := by
  rw [val_main_v22_apply, val_main_v21_apply]
  exact congrArg b (funext fun a => match a with | ⟨0, _⟩ => rfl)

/-- A matrix plus the broadcast row vector is the row vector added to every row. -/
theorem addBias_eq (H : (⟨S10000x128, .f32⟩ : BufTy).Contents (Elt Ideal)) (b : (⟨S128, .f32⟩ : BufTy).Contents (Elt Ideal)) :
    (addf H (val_main_v3 (F := Ideal) b) : FVec Ideal S10000x128 .f32) = Cert.Spec.addRow H b := by
  funext j
  obtain ⟨p, q, rfl⟩ : ∃ (p : Fin 10000) (q : Fin 128), j = ix2 p q := ⟨j 0, j 1, eq_ix2 j⟩
  rw [addf_apply, bias128_apply, Cert.Spec.addRow_apply]

/-- Order one: adj · (x · W1) + b1. -/
theorem h1_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v4 (F := Ideal) x0 x1 x2 x3 = Cert.Spec.addRow (Cert.Spec.mm x1 (Cert.Spec.mm x0 x2)) x3 := by
  unfold val_main_v4 val_main_v1
  rw [xw_eq, adjH_eq]
  exact addBias_eq _ x3

/-- Order two: adj · (adj · (x · W2)) + b2. -/
theorem h2_eq (x0 : (⟨S10000x128, .f32⟩ : BufTy).Contents (Elt Ideal)) (x1 : (⟨S10000x10000, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x4 x5
      = Cert.Spec.addRow (Cert.Spec.mm x1 (Cert.Spec.mm x1 (Cert.Spec.mm x0 x4))) x5 := by
  unfold val_main_v10 val_main_v7 val_main_v6
  rw [show val_main_v5 (F := Ideal) x0 x4 = Cert.Spec.mm x0 x4 from xw_eq x0 x4, adjH_eq, adjH_eq]
  exact addBias_eq _ x5

/-- Order three: adj · (adj · (adj · (x · W3))) + b3. -/
theorem h3_eq (x0 : (⟨S10000x128, .f32⟩ : BufTy).Contents (Elt Ideal)) (x1 : (⟨S10000x10000, .f32⟩ : BufTy).Contents (Elt Ideal))
    (x6 : (⟨S128x128, .f32⟩ : BufTy).Contents (Elt Ideal)) (x7 : (⟨S128, .f32⟩ : BufTy).Contents (Elt Ideal)) :
    val_main_v17 (F := Ideal) x0 x1 x6 x7
      = Cert.Spec.addRow (Cert.Spec.mm x1 (Cert.Spec.mm x1 (Cert.Spec.mm x1 (Cert.Spec.mm x0 x6)))) x7 := by
  unfold val_main_v17 val_main_v14 val_main_v13 val_main_v12
  rw [show val_main_v11 (F := Ideal) x0 x6 = Cert.Spec.mm x0 x6 from xw_eq x0 x6, adjH_eq, adjH_eq, adjH_eq]
  exact addBias_eq _ x7

/-- Three 128-column blocks concatenated along the column axis are the three blocks side by side. -/
theorem concat3_eq_hcat3 (A B C : (⟨S10000x128, .f32⟩ : BufTy).Contents (Elt Ideal)) :
    concatenate S10000x384 1 [⟨S10000x128, A⟩, ⟨S10000x128, B⟩, ⟨S10000x128, C⟩]
        concatenates_S10000x128_S10000x128_S10000x128_S10000x384_d1
      = Cert.Spec.hcat3 A B C := by
  funext j
  obtain ⟨p, q, rfl⟩ : ∃ (p : Fin 10000) (q : Fin 384), j = ix2 p q := ⟨j 0, j 1, eq_ix2 j⟩
  by_cases h1 : q.val < 128
  · rw [Cert.Spec.hcat3_left A B C p q h1]
    refine concatenate_apply_piece 1 _ _ (ix2 p q) 0 (by show (0 : Nat) < 3; omega) S10000x128 A rfl rfl 0 rfl (ix2 p ⟨q.val, h1⟩) ?_ ?_
    · intro b hb
      match b with
      | ⟨0, _⟩ => rfl
      | ⟨1, _⟩ => exact absurd rfl hb
    · show 0 + q.val = q.val
      omega
  · by_cases h2 : q.val < 256
    · rw [Cert.Spec.hcat3_mid A B C p q h1 h2]
      refine concatenate_apply_piece 1 _ _ (ix2 p q) 1 (by show (1 : Nat) < 3; omega) S10000x128 B rfl rfl 128 rfl
        (ix2 p ⟨q.val - 128, by omega⟩) ?_ ?_
      · intro b hb
        match b with
        | ⟨0, _⟩ => rfl
        | ⟨1, _⟩ => exact absurd rfl hb
      · show 128 + (q.val - 128) = q.val
        omega
    · rw [Cert.Spec.hcat3_right A B C p q h1 h2]
      refine concatenate_apply_piece 1 _ _ (ix2 p q) 2 (by show (2 : Nat) < 3; omega) S10000x128 C rfl rfl 256 rfl
        (ix2 p ⟨q.val - 256, by have := q.isLt; omega⟩) ?_ ?_
      · intro b hb
        match b with
        | ⟨0, _⟩ => rfl
        | ⟨1, _⟩ => exact absurd rfl hb
      · show 256 + (q.val - 256) = q.val
        omega

/-- The joined hidden matrix [h1 | h2 | h3]. -/
theorem hidden_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v18 (F := Ideal) x0 x1 x2 x3 x4 x5 x6 x7
      = Cert.Spec.hcat3 (Cert.Spec.addRow (Cert.Spec.mm x1 (Cert.Spec.mm x0 x2)) x3)
          (Cert.Spec.addRow (Cert.Spec.mm x1 (Cert.Spec.mm x1 (Cert.Spec.mm x0 x4))) x5)
          (Cert.Spec.addRow (Cert.Spec.mm x1 (Cert.Spec.mm x1 (Cert.Spec.mm x1 (Cert.Spec.mm x0 x6)))) x7) := by
  unfold val_main_v18
  rw [h1_eq, h2_eq, h3_eq]
  exact concat3_eq_hcat3 _ _ _

/-- The float word 0x3F800000 is one. -/
theorem one_eq : Ideal.ofBits .f32 0x3F800000#32 = 1 := by
  simp [Ideal.ofBits, Ideal.ieee, -EReal.coe_mul]; norm_num

/-- The reference computes the per-order arrangement. -/
theorem ref_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S384x64, .f32⟩ : BufTy).Contents (Elt Ideal)) (x9 : (⟨S64, .f32⟩ : BufTy).Contents (Elt Ideal)) :
      val_main_v29 (F := Ideal) x0 x1 x2 x3 x4 x5 x6 x7 x8 x9 = Cert.Spec.perOrder x0 x1 x2 x4 x6 x3 x5 x7 x8 x9 := by
  funext j
  obtain ⟨p, q, rfl⟩ : ∃ (p : Fin 10000) (q : Fin 64), j = ix2 p q := ⟨j 0, j 1, eq_ix2 j⟩
  have hdot : val_main_v20 (F := Ideal) x0 x1 x2 x3 x4 x5 x6 x7 x8
      = Cert.Spec.mm (val_main_v19 (F := Ideal) x0 x1 x2 x3 x4 x5 x6 x7) x8 :=
    hostDot_eq_mm dot_S10000x384_S384x64_S10000x64_1_0_0_1_n_n rfl rfl rfl rfl rfl rfl _ x8
  have hrelu : ∀ k : Fin 384, val_main_v19 (F := Ideal) x0 x1 x2 x3 x4 x5 x6 x7 (ix2 p k)
      = max (Cert.Spec.hcat3 (Cert.Spec.addRow (Cert.Spec.mm x1 (Cert.Spec.mm x0 x2)) x3)
          (Cert.Spec.addRow (Cert.Spec.mm x1 (Cert.Spec.mm x1 (Cert.Spec.mm x0 x4))) x5)
          (Cert.Spec.addRow (Cert.Spec.mm x1 (Cert.Spec.mm x1 (Cert.Spec.mm x1 (Cert.Spec.mm x0 x6)))) x7) (ix2 p k))
          Cert.Spec.zeroF := by
    intro k
    rw [val_main_v19_apply, hidden_eq, val_main_call0_v0_apply, val_main_call0_cst_apply]
    rfl
  rw [val_main_v29_apply, val_main_v28_apply, val_main_cst_0_apply, val_main_v27_apply, val_main_v26_apply,
    val_main_cst_apply, val_main_v25_apply, val_main_v24_apply, val_main_v23_apply, bias64_apply, hdot,
    Cert.Spec.mm_apply]
  simp only [hrelu]
  rw [Ideal.ofBits_def, one_eq]
  rfl

end Cert.ReferenceIdeal.RefValue

end
-- ==== Proof.lean ====
/-
  The kernel program computes the three-order graph convolution
      out = logistic(max([h1 | h2 | h3], 0) · Wfc + bfc),   h_r = adj^r · (x · W_r) + b_r,
  by multiplying x once by the joined weights [W1|W2|W3] and letting the three orders share each pass over adj; the
  reference computes each order by itself.  A column range of a matrix product is the product with that column range
  of the right factor — the same sums term by term — so the two arrangements are one function of the arguments over the
  extended reals, with no use of finiteness.

  The frames: the word-level program and its reading over the extended reals run to the end from any memory, nothing
  faulting, and every argument array ends as launched (the run of the six items of the program; each argument read
  back through the fold of boundary contents).  The reference's frame is its run with the result dropped.  The ideal
  pass rewrote nothing, so there is nothing to preserve.  For the equivalence, the kernel program's result array is
  read off the last boundary's contents as the joined arrangement of the arguments, the reference's result is its run's
  term read stage by stage as the per-order arrangement, and the two arrangements agree.
-/
import proofs.«180432_g81776177316087_cont_9to1_m_1181_4_alg».proof.Defs
import proofs.«180432_g81776177316087_cont_9to1_m_1181_4_alg».proof.Proof.Gen.Kernel
import proofs.«180432_g81776177316087_cont_9to1_m_1181_4_alg».proof.Proof.Gen.KernelIdeal
import proofs.«180432_g81776177316087_cont_9to1_m_1181_4_alg».proof.Proof.Gen.ReferenceIdeal
import proofs.«180432_g81776177316087_cont_9to1_m_1181_4_alg».proof.Proof.Gen.Pre_finite_inputs
import proofs.«180432_g81776177316087_cont_9to1_m_1181_4_alg».proof.Proof.Gen.ReferenceIdeal.Run
import proofs.«180432_g81776177316087_cont_9to1_m_1181_4_alg».proof.Proof.Gen.ReferenceIdeal.Read
import proofs.«180432_g81776177316087_cont_9to1_m_1181_4_alg».proof.Proof.Kernel.Run
import proofs.«180432_g81776177316087_cont_9to1_m_1181_4_alg».proof.Proof.KernelIdeal.Run
import proofs.«180432_g81776177316087_cont_9to1_m_1181_4_alg».proof.Proof.KernelIdeal.Value
import proofs.«180432_g81776177316087_cont_9to1_m_1181_4_alg».proof.Proof.RefValue
import proofs.«180432_g81776177316087_cont_9to1_m_1181_4_alg».proof.Proof.Spec

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Frame.frame m ρ

/-- The program read over the extended reals runs and leaves its arguments as launched. -/
theorem frame_ki : Cert.frame_KernelIdeal := fun m ρ _ => Cert.KernelIdeal.Frame.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, the kernel program's result is the joined arrangement of
    the arguments, the reference's the per-order arrangement, and the two are one function. -/
theorem algebraic : Cert.algebraic_KernelIdeal_ReferenceIdeal := by
  intro m ρ m' ρ' _ hagree
  refine ⟨fun c => Cert.Spec.viaJoined (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨?_, ?_⟩) (Cert.KernelIdeal.Frame.run_all m ρ)
    · exact (h c _ (Cert.KernelIdeal.Frame.mem_uc Cert.KernelIdeal.main_v7 (by decide))).trans (Cert.KernelIdeal.Result.kernel_value m ρ c)
    · exact ⟨(h c _ (Cert.KernelIdeal.Frame.mem_uc Cert.KernelIdeal.main_arg0 (by decide))).trans (Cert.KernelIdeal.Frame.W6_main_arg0 m ρ c),
        (h c _ (Cert.KernelIdeal.Frame.mem_uc Cert.KernelIdeal.main_arg1 (by decide))).trans (Cert.KernelIdeal.Frame.W6_main_arg1 m ρ c),
        (h c _ (Cert.KernelIdeal.Frame.mem_uc Cert.KernelIdeal.main_arg2 (by decide))).trans (Cert.KernelIdeal.Frame.W6_main_arg2 m ρ c),
        (h c _ (Cert.KernelIdeal.Frame.mem_uc Cert.KernelIdeal.main_arg3 (by decide))).trans (Cert.KernelIdeal.Frame.W6_main_arg3 m ρ c),
        (h c _ (Cert.KernelIdeal.Frame.mem_uc Cert.KernelIdeal.main_arg4 (by decide))).trans (Cert.KernelIdeal.Frame.W6_main_arg4 m ρ c),
        (h c _ (Cert.KernelIdeal.Frame.mem_uc Cert.KernelIdeal.main_arg5 (by decide))).trans (Cert.KernelIdeal.Frame.W6_main_arg5 m ρ c),
        (h c _ (Cert.KernelIdeal.Frame.mem_uc Cert.KernelIdeal.main_arg6 (by decide))).trans (Cert.KernelIdeal.Frame.W6_main_arg6 m ρ c),
        (h c _ (Cert.KernelIdeal.Frame.mem_uc Cert.KernelIdeal.main_arg7 (by decide))).trans (Cert.KernelIdeal.Frame.W6_main_arg7 m ρ c),
        (h c _ (Cert.KernelIdeal.Frame.mem_uc Cert.KernelIdeal.main_arg8 (by decide))).trans (Cert.KernelIdeal.Frame.W6_main_arg8 m ρ c),
        (h c _ (Cert.KernelIdeal.Frame.mem_uc Cert.KernelIdeal.main_arg9 (by decide))).trans (Cert.KernelIdeal.Frame.W6_main_arg9 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, Cert.ReferenceIdeal.RefValue.ref_eq, ← Cert.Spec.viaJoined_eq_perOrder,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
